-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩

abbrev nBuf : Space → Nat
  | .hbm => 15
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x10000, .bf16⟩
  | .hbm, ⟨12, _⟩ => ⟨S10000x128, .bf16⟩
  | .hbm, ⟨13, _⟩ => ⟨S10000x128, .bf16⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x10000, .bf16⟩
  | .local _ .vmem, ⟨7, _⟩ => ⟨S400x10000, .bf16⟩
  | .local _ .vmem, ⟨8, _⟩ => ⟨S400x128, .bf16⟩
  | .local _ .vmem, ⟨9, _⟩ => ⟨S400x128, .bf16⟩
  | .local _ .vmem, ⟨10, _⟩ => ⟨S400x128, .bf16⟩
  | .local _ .vmem, ⟨11, _⟩ => ⟨S400x128, .bf16⟩
  | .local _ .vmem, ⟨12, _⟩ => ⟨S10000x128, .bf16⟩
  | .local _ .vmem, ⟨13, _⟩ => ⟨S1000x10000, .bf16⟩
  | .local _ .vmem, ⟨14, _⟩ => ⟨S1000x10000, .bf16⟩
  | .local _ .vmem, ⟨15, _⟩ => ⟨S10000x128, .bf16⟩
  | .local _ .vmem, ⟨16, _⟩ => ⟨S1x128, .f32⟩
  | .local _ .vmem, ⟨17, _⟩ => ⟨S1000x128, .bf16⟩
  | .local _ .vmem, ⟨18, _⟩ => ⟨S1000x128, .bf16⟩
  | .local _ .vmem, ⟨19, _⟩ => ⟨S128x128, .f32⟩
  | .local _ .vmem, ⟨20, _⟩ => ⟨S1x128, .f32⟩
  | .local _ .vmem, ⟨21, _⟩ => ⟨S1000x128, .f32⟩
  | .local _ .vmem, ⟨22, _⟩ => ⟨S1000x128, .f32⟩
  | .local _ .vmem, ⟨23, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_cond1 (i : grid1.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c1000_i32 : BitVec 32 := 1000#32
  let v26 : BitVec 32 := Scalar.muli arg0 c1000_i32
  let v27 : Index := Scalar.indexCast v26
  let c0_13 : Index := 0#32
  ![v27.toNat, 0]
def k1_cond2 (i : grid1.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c10_i32 : BitVec 32 := 10#32
  let v0 : BitVec 1 := Scalar.cmpi .slt arg0 c10_i32
  let c19_i32 : BitVec 32 := 19#32
  let v1 : BitVec 32 := Scalar.subi c19_i32 arg0
  let v2 : BitVec 32 := Scalar.select v0 arg0 v1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c10_i32 : BitVec 32 := 10#32
  let v0 : BitVec 1 := Scalar.cmpi .slt arg0 c10_i32
  let c19_i32 : BitVec 32 := 19#32
  let v1 : BitVec 32 := Scalar.subi c19_i32 arg0
  let c9_i32 : BitVec 32 := 9#32
  let v2 : BitVec 32 := Scalar.select v0 c9_i32 v1
  let c0_i32 : BitVec 32 := 0#32
  let c0_i32_0 : BitVec 32 := 0#32
  ![v2.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .bf16 = 32 ∨ (Rect.block (s := S10000x128) S400x128.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S1000x128.size a ≤ S10000x128.size a
  k1_off1_packedbf16 : ∀ i : grid1.Coords, ∀ (k1_h1 : k1_cond1 i = 1#1), (Rect.unit (s := S10000x128) (k1_off1 i) S1000x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .bf16 = 32 ∨ (Rect.block (s := S10000x128) S1000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Base.lean ====
/-
  The two kernel regions' proof data, stated once for every float instance: what each region's body leaves in
  its windows' staging buffers and in its scratch, as pure functions of the arrays the region is entered with.

  Region 0 (25 row blocks of 400 rows): the scratch holds the support x·W1 from the first point on; at block t the
  three outputs are the bf16 copy of the adjacency block, relu(adj_t · (x·W1) + b1) and that times W2.
  Region 1 (20 points): at point t < 10 rows 1000·t … 1000·t+999 of the scratch receive
  (relu(adj_t · s2 + b2) + h1_t) · W3; at point t ≥ 10 the output block 19 − t is adj_(19−t) · scratch + b3, the
  scratch then holding all ten slices.
-/
import proofs.«179938_g5239860101595_cont_sun_m_358_21_alg».proof.Proof.Gen.Kernel.Launch
import proofs.«179938_g5239860101595_cont_sun_m_358_21_alg».proof.Proof.Gen.Kernel.Skeleton
import proofs.«179938_g5239860101595_cont_sun_m_358_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point of region 0. -/
abbrev t00 : Fin cfg0.N := ⟨0, by decide⟩

/-- The adjacency's row block `t`, the features, the two weight matrices and the bias row, at their literal types. -/
abbrev adjB (c : Dev nD) (t : Fin cfg0.N) : Vec F S400x10000 .f32 := iblk0 V c 0 t
abbrev xA (c : Dev nD) (t : Fin cfg0.N) : Vec F S10000x128 .f32 := iblk0 V c 1 t
abbrev w1A (c : Dev nD) (t : Fin cfg0.N) : Vec F S128x128 .f32 := iblk0 V c 2 t
abbrev b1A (c : Dev nD) (t : Fin cfg0.N) : Vec F S1x128 .f32 := iblk0 V c 3 t
abbrev w2A (c : Dev nD) (t : Fin cfg0.N) : Vec F S128x128 .f32 := iblk0 V c 4 t

/-- The support x·W1 the first point leaves in the scratch (every later point finds it there). -/
def S1 (c : Dev nD) : Vec F S10000x128 .bf16 := k0_pay1 (xA V c t00) (w1A V c t00)

/-- What point `t` leaves in the three output windows' buffers. -/
def out0_5 (c : Dev nD) (t : Fin cfg0.N) : Vec F S400x10000 .bf16 := k0_pay2 (adjB V c t)
def out0_6 (c : Dev nD) (t : Fin cfg0.N) : Vec F S400x128 .bf16 := k0_pay3 (adjB V c t) (S1 V c) (b1A V c t)
def out0_7 (c : Dev nD) (t : Fin cfg0.N) : Vec F S400x128 .bf16 := k0_pay4 (adjB V c t) (S1 V c) (b1A V c t) (w2A V c t)

/-- Region 0's scratch as a whole memref. -/
abbrev scM0 : Memref sig .tc .vmem S10000x128 .bf16 := Memref.whole cc0_scratch0

/-- The core's scoped buffers that region 0 neither stages nor uses: each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- Region 0's invariant before point `n`: at the first point the class's; afterwards the scratch at x·W1. -/
def Phi0 (c : Dev nD) : ℕ → sProp 𝕄
  | 0 => Pipeline.ΦA spec0 c
  | _ + 1 => iprop(owns (c : Thread nD τ) scM0 fullShare (S1 V c) ∗ rest0 (F := F) c ∗ (∃ r, prngReg c r))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The bf16 adjacency's row block at point `t` (block t, then 19 − t), the support s2, the bias rows, the h1 block
    (block min t 9) and W3, at their literal types. -/
abbrev a16B (c : Dev nD) (t : Fin cfg1.N) : Vec F S1000x10000 .bf16 := iblk1 V c 0 t
abbrev s2A (c : Dev nD) (t : Fin cfg1.N) : Vec F S10000x128 .bf16 := iblk1 V c 1 t
abbrev b2A (c : Dev nD) (t : Fin cfg1.N) : Vec F S1x128 .f32 := iblk1 V c 2 t
abbrev h1B (c : Dev nD) (t : Fin cfg1.N) : Vec F S1000x128 .bf16 := iblk1 V c 3 t
abbrev w3A (c : Dev nD) (t : Fin cfg1.N) : Vec F S128x128 .f32 := iblk1 V c 4 t
abbrev b3A (c : Dev nD) (t : Fin cfg1.N) : Vec F S1x128 .f32 := iblk1 V c 5 t

/-- The slice of 1000 rows point `t` (of the first ten) stores into the scratch. -/
def P1 (c : Dev nD) (t : Fin cfg1.N) : Vec F S1000x128 .bf16 :=
  k1_pay1 (a16B V c t) (s2A V c t) (b2A V c t) (h1B V c t) (w3A V c t)

theorem row_lt (y : S10000x128.Idx) : (y 0).val / 1000 < cfg1.N := by
  have h := ValueIdx.idx2_lt0 y; have hN : cfg1.N = 20 := N_1; omega

/-- The scratch once the first ten points have run: row r is row r mod 1000 of slice r / 1000. -/
def S3 (c : Dev nD) : Vec F S10000x128 .bf16 := fun y =>
  P1 V c ⟨(y 0).val / 1000, row_lt y⟩
    (ValueIdx.ix2 (⟨(y 0).val % 1000, Nat.mod_lt _ (by decide)⟩ : Fin 1000) (⟨(y 1).val, ValueIdx.idx2_lt1 y⟩ : Fin 128))

/-- What a point of the last ten leaves in the output window's buffer. -/
def out1_6 (c : Dev nD) (t : Fin cfg1.N) : Vec F S1000x128 .f32 := k1_pay2 (a16B V c t) (S3 V c) (b3A V c t)

/-- Region 1's scratch as a whole memref. -/
abbrev scM1 : Memref sig .tc .vmem S10000x128 .bf16 := Memref.whole cc1_scratch0

/-- The core's scoped buffers that region 1 neither stages nor uses: each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- Region 1's invariant before point `n`: the scratch at contents whose rows below 1000 · min n 10 are the
    slices' (the rest whatever the region found there). -/
def Phi1 (c : Dev nD) (n : ℕ) : sProp 𝕄 :=
  iprop((∃ d : Vec F S10000x128 .bf16, ⌜∀ y : S10000x128.Idx, (y 0).val < 1000 * min n 10 → d y = S3 V c y⌝
      ∗ owns (c : Thread nD τ) scM1 fullShare d) ∗ rest1 (F := F) c ∗ (∃ r, prngReg c r))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

end Cert.Kernel.Hand

end
-- ==== Proof.K.R0Body.lean ====
/-
  Region 0's body, point by point: the first point computes the support x·W1 into the scratch; every point then
  casts its adjacency block, multiplies it with the support, adds the bias, rectifies, and multiplies by W2.
-/
import proofs.«179938_g5239860101595_cont_sun_m_358_21_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two zero offsets, as the constant function. -/
theorem r0_z2 : (![0, 0] : Fin 2 → ℕ) = fun _ => 0 := by funext a; fin_cases a <;> rfl

/-- A load through the whole-shape rectangle at zero offsets reads the view's contents. -/
theorem r0_readAt_unit_zero {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store through the whole-shape rectangle at zero offsets leaves its payload. -/
theorem r0_read_store_unit_zero {κ : Kind} {sp : Space} {S : Shape} {e : EltTy} (v : View sig κ sp S e) (f : v.ty.Contents (Elt F))
    {off : Fin S.rank → Nat} (h : off = fun _ => 0) (inb : ∀ a, off a + S.size a ≤ S.size a) (w w' : S.Idx → Elt F e) (hw : w = w') :
    v.read (Elt F) (v.writes (Elt F) f [(⟨Rect.unit off S.size inb, w⟩ : View.Piece (Elt F) S e)]) = w' := by
  subst hw
  exact (View.read_writes_eq_canon v f _ (fun y => ⟨_, List.mem_singleton_self _, View.mem_set_unit_zero h inb y⟩)).trans
    (View.canon_unit_zero h inb w)

/-- Associativity of the separating conjunction, as an equation. -/
theorem r0_sep_assoc_eq (A B C : sProp 𝕄) : (iprop((A ∗ B) ∗ C) : sProp 𝕄) = iprop(A ∗ B ∗ C) := by
  have h₁ : (iprop((A ∗ B) ∗ C) : sProp 𝕄) ⊢ iprop(A ∗ B ∗ C) := by
    iintro ⟨⟨HA, HB⟩, HC⟩
    isplitl [HA]; · iexact HA
    isplitl [HB]; · iexact HB
    iexact HC
  have h₂ : (iprop(A ∗ B ∗ C) : sProp 𝕄) ⊢ iprop((A ∗ B) ∗ C) := by
    iintro ⟨HA, HB, HC⟩
    isplitl [HA HB]
    · isplitl [HA]; · iexact HA
      iexact HB
    iexact HC
  exact BI.equiv_iff.mp ⟨h₁, h₂⟩

/-- The class invariant of region 0 with the scratch split off. -/
theorem PhiA0_eq (c : Dev nD) :
    (Pipeline.ΦA spec0 c : sProp 𝕄)
      = iprop((∃ d, owns (c : Thread nD τ) scM0 fullShare d) ∗ rest0 (F := F) c ∗ (∃ r, prngReg c r)) := by
  unfold Pipeline.ΦA; rw [scopedRest0_eq]; simp only [scM0, owns_whole]; unfold rest0
  exact r0_sep_assoc_eq _ _ _

/-- The invariant at a point's start, restated at the point's number. -/
theorem Phi0_castSucc (c : Dev nD) (t : Fin cfg0.N) : (dat0 V c).Φ t.castSucc = Phi0 V c t.val := by
  dsimp only [dat0]; simp only [Fin.coe_castSucc]

/-- Before a point that is not the first, the scratch holds the support. -/
theorem Phi0_pos (c : Dev nD) (n : ℕ) (hn : n ≠ 0) :
    Phi0 V c n = iprop(owns (c : Thread nD τ) scM0 fullShare (S1 V c) ∗ rest0 (F := F) c ∗ (∃ r, prngReg c r)) := by
  cases n with
  | zero => exact absurd rfl hn
  | succ n => rfl

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The body's one branch condition, from the grid coordinates. -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at a later point, on whole staging memrefs: the inputs at their contents, the outputs at anything, the
    scratch at `xs`; it leaves the inputs and the scratch as they were and the outputs at the three payloads. -/
theorem sound_kernel0_later (c : Dev nD) (E : Set ℕ) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S400x10000 .bf16) (harg6 : arg6.IsWhole)
    (arg7 : Memref sig .tc .vmem S400x128 .bf16) (harg7 : arg7.IsWhole)
    (arg8 : Memref sig .tc .vmem S400x128 .bf16) (harg8 : arg8.IsWhole)
    (arg9 : Memref sig .tc .vmem S10000x128 .bf16) (harg9 : arg9.IsWhole)
    (hc : ¬cond0 i)
    (x0 : Vec F S400x10000 .f32) (x1 : Vec F S10000x128 .f32) (x2 : Vec F S128x128 .f32) (x3 : Vec F S1x128 .f32) (x4 : Vec F S128x128 .f32) (xs : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 xs x3)
            ∗ owns (c : Thread nD τ) arg8 fullShare (k0_pay4 x0 xs x3 x4) ∗ owns (c : Thread nD τ) arg9 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
  subst hf0; subst hf1; subst hf2; subst hf3; subst hf4; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact r0_read_store_unit_zero _ _ r0_z2 _ _ _ (by rw [r0_readAt_unit_zero _ _ r0_z2])
  isplitl [H6]
  · iexists _; isplitr
    swap; · iexact H6
    ipureintro
    exact r0_read_store_unit_zero _ _ r0_z2 _ _ _ (by rw [r0_readAt_unit_zero _ _ r0_z2, r0_readAt_unit_zero _ _ r0_z2, r0_readAt_unit_zero _ _ r0_z2])
  isplitl [H7]
  · iexists _; isplitr
    swap; · iexact H7
    ipureintro
    exact r0_read_store_unit_zero _ _ r0_z2 _ _ _ (by rw [r0_readAt_unit_zero _ _ r0_z2, r0_readAt_unit_zero _ _ r0_z2, r0_readAt_unit_zero _ _ r0_z2, r0_readAt_unit_zero _ _ r0_z2])
  iexists fs; isplitr; · ipureintro; rfl
  iexact HS

set_option maxHeartbeats 1000000 in
/-- The body at the first point, on whole staging memrefs: the inputs at their contents, the outputs and the scratch
    at anything; it leaves the inputs as they were, the scratch at the support x·W1 and the outputs at the three
    payloads over that support. -/
theorem sound_kernel0_first (c : Dev nD) (E : Set ℕ) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S400x10000 .bf16) (harg6 : arg6.IsWhole)
    (arg7 : Memref sig .tc .vmem S400x128 .bf16) (harg7 : arg7.IsWhole)
    (arg8 : Memref sig .tc .vmem S400x128 .bf16) (harg8 : arg8.IsWhole)
    (arg9 : Memref sig .tc .vmem S10000x128 .bf16) (harg9 : arg9.IsWhole)
    (hc : cond0 i)
    (x0 : Vec F S400x10000 .f32) (x1 : Vec F S10000x128 .f32) (x2 : Vec F S128x128 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 (k0_pay1 x1 x2) x3)
            ∗ owns (c : Thread nD τ) arg8 fullShare (k0_pay4 x0 (k0_pay1 x1 x2) x3 x4) ∗ owns (c : Thread nD τ) arg9 fullShare (k0_pay1 x1 x2)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact r0_read_store_unit_zero _ _ r0_z2 _ _ _ (by rw [r0_readAt_unit_zero _ _ r0_z2])
  isplitl [H6]
  · iexists _; isplitr
    swap; · iexact H6
    ipureintro
    sl_unfold_run_names
    exact r0_read_store_unit_zero _ _ r0_z2 _ _ _ (by rw [View.readCov_unit_zero _ r0_z2, r0_readAt_unit_zero _ _ r0_z2, r0_readAt_unit_zero _ _ r0_z2, r0_readAt_unit_zero _ _ r0_z2, r0_readAt_unit_zero _ _ r0_z2])
  isplitl [H7]
  · iexists _; isplitr
    swap; · iexact H7
    ipureintro
    sl_unfold_run_names
    exact r0_read_store_unit_zero _ _ r0_z2 _ _ _ (by rw [View.readCov_unit_zero _ r0_z2, r0_readAt_unit_zero _ _ r0_z2, r0_readAt_unit_zero _ _ r0_z2, r0_readAt_unit_zero _ _ r0_z2, r0_readAt_unit_zero _ _ r0_z2, r0_readAt_unit_zero _ _ r0_z2])
  iexists _; isplitr
  swap; · iexact HS
  ipureintro
  sl_unfold_run_names
  exact r0_read_store_unit_zero _ _ r0_z2 _ _ _ (by rw [r0_readAt_unit_zero _ _ r0_z2, r0_readAt_unit_zero _ _ r0_z2])

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks; at the first point the invariant hands over the
    scratch at anything and takes it back at the support, at a later point it hands it over and takes it back at the
    support; the rest of the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(owns (c : Thread nD τ) scM0 fullShare (S1 V c) ∗ rest0 (F := F) c ∗ (∃ r, prngReg c r)) from rfl,
    after0_0, after0_1, after0_2, after0_3, after0_4, after0_5, after0_6, after0_7, Phi0_castSucc]
  unfold out0_5 out0_6 out0_7
  by_cases hz : t.val = 0
  · have hS : S1 V c = k0_pay1 (xA V c t) (w1A V c t) := by
      have ht : t = t00 := Fin.ext hz
      rw [ht]; rfl
    rw [hz, show Phi0 V c 0 = Pipeline.ΦA spec0 c from rfl, PhiA0_eq, hS]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords t) _ _ _ _ _ _ _ _ _ _ _ _ _ _ _ _ _ _ ((hcond0 t).mpr hz)
      (adjB V c t) (xA V c t) (w1A V c t) (b1A V c t) (w2A V c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi0_pos V c t.val hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_later c Set.univ (grid0.coords t) _ _ _ _ _ _ _ _ _ _ _ _ _ _ _ _ _ _ (fun h => hz ((hcond0 t).mp h))
      (adjB V c t) (xA V c t) (w1A V c t) (b1A V c t) (w2A V c t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point. -/
theorem hin0 (c : Dev nD) : Pipeline.ΦA spec0 c ⊢ (dat0 V c).Φ 0 := by
  show Pipeline.ΦA spec0 c ⊢ Phi0 V c 0
  exact .rfl

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = iprop(owns (c : Thread nD τ) scM0 fullShare (S1 V c) ∗ rest0 (F := F) c ∗ (∃ r, prngReg c r)) from rfl, PhiA0_eq]
  iintro ⟨HS, Hr⟩
  isplitl [HS]; · iexists _; iexact HS
  iexact Hr

end Cert.Kernel.Hand

end
-- ==== Proof.K.R1Body.lean ====
/-
  Region 1's body, point by point: each of the first ten points stores one slice of 1000 rows of
  (relu(adj_t · s2 + b2) + h1_t) · W3 into the scratch; each of the last ten reads the whole scratch and stores
  adj_(19−t) · scratch + b3 into the output window.
-/
import proofs.«179938_g5239860101595_cont_sun_m_358_21_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

theorem r1_zero2 : (![0, 0] : Fin 2 → Nat) = fun _ => 0 := funext fun a => by fin_cases a <;> rfl

/-- A load of a whole buffer through the whole rectangle reads the contents. -/
theorem r1_readAt_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole rectangle leaves its payload, whatever the buffer held. -/
theorem r1_read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h; funext y
  have e := View.read_writes_cons_emb v f (Rect.whole S) w [] y
  rw [Rect.emb_whole_apply] at e
  exact e

/-! ## The two conditions, the scratch slice's offsets and the output window's idle points, over the grid -/

theorem r1_hcond1 : ∀ t : Fin cfg1.N, k1_cond1 (grid1.coords t) = 1#1 ↔ t.val < 10 :=
  (by decide +kernel : ∀ t : Fin grid1.N, k1_cond1 (grid1.coords t) = 1#1 ↔ t.val < 10)
theorem r1_hcond2 : ∀ t : Fin cfg1.N, k1_cond2 (grid1.coords t) = 1#1 ↔ 10 ≤ t.val :=
  (by decide +kernel : ∀ t : Fin grid1.N, k1_cond2 (grid1.coords t) = 1#1 ↔ 10 ≤ t.val)
theorem r1_coord0 : ∀ t : Fin cfg1.N, ((grid1.coords t) 0).val = t.val :=
  (by decide +kernel : ∀ t : Fin grid1.N, ((grid1.coords t) 0).val = t.val)
theorem r1_idleAt6 : ∀ t : Fin cfg1.N, t.val < 10 → cfg1.idle 6 (grid1.coords t) = true := by decide +kernel
theorem r1_noFlush6 : ∀ t : Fin cfg1.N, t.val < 10 → (cfg1.win 6).flush t = false := by decide +kernel
theorem r1_liveAt6 : ∀ t : Fin cfg1.N, 10 ≤ t.val → cfg1.idle 6 (grid1.coords t) = false := by decide +kernel
theorem r1_liveAt0 : ∀ t : Fin cfg1.N, cfg1.idle 0 (grid1.coords t) = false := by decide +kernel
theorem r1_liveAt1 : ∀ t : Fin cfg1.N, cfg1.idle 1 (grid1.coords t) = false := by decide +kernel
theorem r1_liveAt2 : ∀ t : Fin cfg1.N, cfg1.idle 2 (grid1.coords t) = false := by decide +kernel
theorem r1_liveAt3 : ∀ t : Fin cfg1.N, cfg1.idle 3 (grid1.coords t) = false := by decide +kernel
theorem r1_liveAt4 : ∀ t : Fin cfg1.N, cfg1.idle 4 (grid1.coords t) = false := by decide +kernel
theorem r1_liveAt5 : ∀ t : Fin cfg1.N, cfg1.idle 5 (grid1.coords t) = false := by decide +kernel

/-! ## Each input window's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The kernel on whole memrefs, in each of the two cases the grid meets -/

set_option maxHeartbeats 2000000 in
/-- A point of the first ten, on whole memrefs: the inputs and the output window's buffer come back as they were; the
    scratch comes back with the slice's rows at the payload of the five inputs, every other row as it was. -/
theorem run1_first (c : Dev nD) (E : Set ℕ) (i : grid1.Coords)
    (arg1 : Memref sig .tc .vmem S1000x10000 .bf16) (harg1 : arg1.IsWhole)
    (arg2 : Memref sig .tc .vmem S10000x128 .bf16) (harg2 : arg2.IsWhole)
    (arg3 : Memref sig .tc .vmem S1x128 .f32) (harg3 : arg3.IsWhole)
    (arg4 : Memref sig .tc .vmem S1000x128 .bf16) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (arg8 : Memref sig .tc .vmem S10000x128 .bf16) (harg8 : arg8.IsWhole)
    (hc1 : k1_cond1 i = 1#1) (hc2 : ¬ k1_cond2 i = 1#1)
    (x0 : Vec F S1000x10000 .bf16) (x1 : Vec F S10000x128 .bf16) (x2 : Vec F S1x128 .f32) (x3 : Vec F S1000x128 .bf16)
    (x4 : Vec F S128x128 .f32) (x5 : Vec F S1x128 .f32) (xi : Vec F S1000x128 .f32) (d : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi
            ∗ (∃ d' : Vec F S10000x128 .bf16, owns (c : Thread nD τ) arg8 fullShare d'
                ∗ ⌜(∀ x, d' ((Rect.unit (s := S10000x128) (k1_off1 i) S1000x128.size (k1_off1_inb i hc1)).emb x) = k1_pay1 x0 x1 x2 x3 x4 x)
                  ∧ (∀ y, y ∉ (Rect.unit (s := S10000x128) (k1_off1 i) S1000x128.size (k1_off1_inb i hc1)).set → d' y = d y)⌝)) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _
  isplitl [H7]
  · iexists _; isplitr
    swap; · iexact H7
    ipureintro; rfl
  ipureintro
  refine ⟨fun x => ?_, fun y hy => ?_⟩
  · rw [View.read_writes_cons_emb]
    simp only [r1_readAt_unit_zero (S := S1000x10000) _ _ r1_zero2, r1_readAt_unit_zero (S := S10000x128) _ _ r1_zero2, r1_readAt_unit_zero (S := S1x128) _ _ r1_zero2, r1_readAt_unit_zero (S := S1000x128) _ _ r1_zero2, r1_readAt_unit_zero (S := S128x128) _ _ r1_zero2]
  · exact View.read_writes_apply_of_forall_not_mem _ _ y _ (fun p hp => by
      obtain rfl := List.mem_singleton.mp hp; exact hy)

set_option maxHeartbeats 2000000 in
/-- A point of the last ten, on whole memrefs: the inputs and the scratch come back as they were; the output window's
    buffer comes back at the payload of the adjacency block, the scratch and the last bias row. -/
theorem run1_last (c : Dev nD) (E : Set ℕ) (i : grid1.Coords)
    (arg1 : Memref sig .tc .vmem S1000x10000 .bf16) (harg1 : arg1.IsWhole)
    (arg2 : Memref sig .tc .vmem S10000x128 .bf16) (harg2 : arg2.IsWhole)
    (arg3 : Memref sig .tc .vmem S1x128 .f32) (harg3 : arg3.IsWhole)
    (arg4 : Memref sig .tc .vmem S1000x128 .bf16) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (arg8 : Memref sig .tc .vmem S10000x128 .bf16) (harg8 : arg8.IsWhole)
    (hc1 : ¬ k1_cond1 i = 1#1) (hc2 : k1_cond2 i = 1#1)
    (x0 : Vec F S1000x10000 .bf16) (x1 : Vec F S10000x128 .bf16) (x2 : Vec F S1x128 .f32) (x3 : Vec F S1000x128 .bf16)
    (x4 : Vec F S128x128 .f32) (x5 : Vec F S1x128 .f32) (xi : Vec F S1000x128 .f32) (d : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay2 x0 d x5) ∗ owns (c : Thread nD τ) arg8 fullShare d) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (r1_read_writes_unit_zero (S := S1000x128) _ _ r1_zero2 _ _).trans ?_
    simp only [r1_readAt_unit_zero (S := S1000x10000) _ _ r1_zero2, r1_readAt_unit_zero (S := S10000x128) _ _ r1_zero2, r1_readAt_unit_zero (S := S1x128) _ _ r1_zero2, r1_readAt_unit_zero (S := S1000x128) _ _ r1_zero2, r1_readAt_unit_zero (S := S128x128) _ _ r1_zero2]
  iexists f7; isplitr; · ipureintro; rfl
  iexact H7

/-- The class invariant of region 1 with the scratch split off. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA; rw [scopedRest1_eq]; unfold rest1; simp only [scM1, owns_whole]
  refine BI.equiv_iff.mp ⟨?_, ?_⟩
  · show (_ : sProp 𝕄) ⊢ _
    iintro ⟨⟨H1, H2, H3, H4, H5, H6, H7, H8, H9, H10, H11, H12, H13, H14⟩, Hr⟩
    isplitl [H14]; · iexact H14
    isplitr [Hr]
    · iframe
    iexact Hr
  · show (_ : sProp 𝕄) ⊢ _
    iintro ⟨H14, ⟨H1, H2, H3, H4, H5, H6, H7, H8, H9, H10, H11, H12, H13⟩, Hr⟩
    isplitr [Hr]
    · iframe
    iexact Hr

/-! ## The body obligation, at a generic point -/

/-- Each window's current staging memref at point `t`, as the pipeline passes it, and its wholeness. -/
abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- One more slice: contents that agree with the ten slices on the rows below 1000·t, overwritten on rows
    1000·t … 1000·t+999 by slice t, agree with them on the rows below 1000·(t+1). -/
theorem slice_step1 (c : Dev nD) (t : Fin cfg1.N) (ht : t.val < 10) (hc1 : k1_cond1 (grid1.coords t) = 1#1)
    (d d' : Vec F S10000x128 .bf16)
    (hd : ∀ y : S10000x128.Idx, (y 0).val < 1000 * min t.val 10 → d y = S3 V c y)
    (h1 : ∀ x, d' ((Rect.unit (s := S10000x128) (k1_off1 (grid1.coords t)) S1000x128.size (k1_off1_inb (grid1.coords t) hc1)).emb x) = P1 V c t x)
    (h2 : ∀ y, y ∉ (Rect.unit (s := S10000x128) (k1_off1 (grid1.coords t)) S1000x128.size (k1_off1_inb (grid1.coords t) hc1)).set → d' y = d y) :
    ∀ y : S10000x128.Idx, (y 0).val < 1000 * min (t.val + 1) 10 → d' y = S3 V c y := by
  intro y hy
  have hy0 := ValueIdx.idx2_lt0 y
  have hy1 := ValueIdx.idx2_lt1 y
  have hoff0 : k1_off1 (grid1.coords t) 0 = 1000 * t.val := by rw [k1_off1_eq, r1_coord0]; rfl
  have hoff1 : k1_off1 (grid1.coords t) 1 = 0 := by rw [k1_off1_eq]; rfl
  by_cases hlo : (y 0).val < 1000 * t.val
  · rw [h2 y (by
      rw [Rect.mem_set_unit]; intro hall
      have h0 := (hall 0).1; rw [hoff0] at h0; omega)]
    exact hd y (by omega)
  · have hx0 : (y 0).val - 1000 * t.val < 1000 := by omega
    have hemb : (Rect.unit (s := S10000x128) (k1_off1 (grid1.coords t)) S1000x128.size (k1_off1_inb (grid1.coords t) hc1)).emb
        (ValueIdx.ix2 (⟨(y 0).val - 1000 * t.val, hx0⟩ : Fin 1000) (⟨(y 1).val, hy1⟩ : Fin 128)) = y := by
      funext a
      refine Fin.ext ?_
      rw [Rect.emb_apply]
      match a with
      | ⟨0, _⟩ => show k1_off1 (grid1.coords t) 0 + 1 * ((y 0).val - 1000 * t.val) = (y 0).val; rw [hoff0]; omega
      | ⟨1, _⟩ => show k1_off1 (grid1.coords t) 1 + 1 * (y 1).val = (y 1).val; rw [hoff1]; omega
    have e := h1 (ValueIdx.ix2 (⟨(y 0).val - 1000 * t.val, hx0⟩ : Fin 1000) (⟨(y 1).val, hy1⟩ : Fin 128))
    rw [hemb] at e
    rw [e]; unfold S3
    have ht' : (⟨(y 0).val / 1000, row_lt y⟩ : Fin cfg1.N) = t := Fin.ext (by show (y 0).val / 1000 = t.val; omega)
    rw [ht']
    congr 1
    funext a
    match a with
    | ⟨0, _⟩ => exact Fin.ext (by show (y 0).val - 1000 * t.val = (y 0).val % 1000; omega)
    | ⟨1, _⟩ => rfl

set_option maxHeartbeats 4800000 in
/-- The body at any point. At a point of the first ten the scratch comes back with one more slice in place and the output
    window's buffer untouched; at a point of the last ten the scratch holds all ten slices, comes back unchanged, and the
    output window's buffer holds the block computed from it. The inputs hold their blocks throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  rw [show (dat1 V c).leavesExact 0 t = owns (c : Thread nD τ) (ms1_0 t) fullShare ((dat1 V c).after 0 t) from by
      unfold Dat.leavesExact; rw [r1_liveAt0 t], after1_0]
  rw [show (dat1 V c).leavesExact 1 t = owns (c : Thread nD τ) (ms1_1 t) fullShare ((dat1 V c).after 1 t) from by
      unfold Dat.leavesExact; rw [r1_liveAt1 t], after1_1]
  rw [show (dat1 V c).leavesExact 2 t = owns (c : Thread nD τ) (ms1_2 t) fullShare ((dat1 V c).after 2 t) from by
      unfold Dat.leavesExact; rw [r1_liveAt2 t], after1_2]
  rw [show (dat1 V c).leavesExact 3 t = owns (c : Thread nD τ) (ms1_3 t) fullShare ((dat1 V c).after 3 t) from by
      unfold Dat.leavesExact; rw [r1_liveAt3 t], after1_3]
  rw [show (dat1 V c).leavesExact 4 t = owns (c : Thread nD τ) (ms1_4 t) fullShare ((dat1 V c).after 4 t) from by
      unfold Dat.leavesExact; rw [r1_liveAt4 t], after1_4]
  rw [show (dat1 V c).leavesExact 5 t = owns (c : Thread nD τ) (ms1_5 t) fullShare ((dat1 V c).after 5 t) from by
      unfold Dat.leavesExact; rw [r1_liveAt5 t], after1_5]
  have hN : t.val < 20 := lt_of_lt_of_eq t.isLt (show cfg1.N = 20 from N_1)
  unfold Phi1
  by_cases h : t.val < 10
  · have hc1 : k1_cond1 (grid1.coords t) = 1#1 := (r1_hcond1 t).mpr h
    have hc2 : ¬ k1_cond2 (grid1.coords t) = 1#1 := fun h' => by have := (r1_hcond2 t).mp h'; omega
    rw [Dat.leavesExact_idle (dat1 V c) 6 t (r1_idleAt6 t h) (r1_noFlush6 t h)]
    iintro ⟨⟨⟨%d, %hd, HS⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply (run1_first c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) _ d _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%d', HS, %hd'⟩⟩
    isplitl [HS Hrest Hg]
    · isplitl [HS]
      · iexists d'; isplitr
        · ipureintro; exact slice_step1 V c t h hc1 d d' hd hd'.1 hd'.2
        iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬ k1_cond1 (grid1.coords t) = 1#1 := fun h' => h ((r1_hcond1 t).mp h')
    have hc2 : k1_cond2 (grid1.coords t) = 1#1 := (r1_hcond2 t).mpr (by omega)
    rw [show (dat1 V c).leavesExact 6 t = owns (c : Thread nD τ) (ms1_6 t) fullShare ((dat1 V c).after 6 t) from by
        unfold Dat.leavesExact; rw [r1_liveAt6 t (by omega)], after1_6]
    unfold out1_6
    iintro ⟨⟨⟨%d, %hd, HS⟩, Hrest, Hg⟩, Ho, ⟨%d0, H0⟩, ⟨%d1, H1⟩, ⟨%d2, H2⟩, ⟨%d3, H3⟩, ⟨%d4, H4⟩, ⟨%d5, H5⟩, ⟨%d6, H6⟩⟩
    obtain rfl : d = S3 V c := funext fun y => hd y (by have := ValueIdx.idx2_lt0 y; omega)
    iapply (run1_last c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) _ (S3 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hrest Hg]
    · isplitl [HS]
      · iexists (S3 V c); isplitr
        · ipureintro; exact fun _ _ => rfl
        iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point (no row of the scratch is claimed yet). -/
theorem hin1 (c : Dev nD) : Pipeline.ΦA spec1 c ⊢ (dat1 V c).Φ 0 := by
  rw [show (dat1 V c).Φ 0 = Phi1 V c 0 from rfl, PhiA1_eq]; unfold Phi1
  iintro ⟨⟨%d, HS⟩, Hrest, Hg⟩
  isplitl [HS]
  · iexists d; isplitr
    · ipureintro; intro y hy; exact absurd hy (by omega)
    iexact HS
  isplitl [Hrest]; · iexact Hrest
  iexact Hg

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_eq]; unfold Phi1
  iintro ⟨⟨%d, -, HS⟩, Hrest, Hg⟩
  isplitl [HS]
  · iexists d; iexact HS
  isplitl [Hrest]; · iexact Hrest
  iexact Hg

end Cert.Kernel.Hand

end
-- ==== Proof.K.Run.lean ====
/-
  The whole program's run: three reshapes of the bias vectors on the host, then the two kernel regions. Between
  items every unscoped buffer of the core is held at a named valuation: the launch memory, then the reshapes'
  results, then region 0's three output arrays at what its 25 write-backs leave, then region 1's output array at
  what its ten write-backs leave. Every weakly fair execution terminates and ends at that last valuation; no item
  writes an argument array.
-/
import proofs.«179938_g5239860101595_cont_sun_m_358_21_alg».proof.Proof.K.R0Body
import proofs.«179938_g5239860101595_cont_sun_m_358_21_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution of @main terminates, and the final memory holds every unscoped buffer of every core
    at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.K.Frame.lean ====
/-
  From the run to the claims' posts: the result buffer ends at the last valuation's contents, and every argument
  buffer ends as launched, since neither a reshape nor a kernel region writes an argument.
-/
import proofs.«179938_g5239860101595_cont_sun_m_358_21_alg».proof.Proof.K.Run
import proofs.«179938_g5239860101595_cont_sun_m_358_21_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is neither a reshape's result nor an array of either region holds its launch contents at the end. -/
theorem W3_keep (c : Dev nD) (r : Ref sig .tc) (h1 : ∀ w, Pipeline.arrRef spec1 w ≠ r) (h0 : ∀ w, Pipeline.arrRef spec0 w ≠ r)
    (hh : r ∉ Gen.hostOps0_W) : W3 m c (Proc.devRef .tc r) = m ((c : Thread nD τ).loc r) :=
  (W3_of_ne m c r h1).trans ((W2_of_ne m c r h0).trans (Gen.V1_of m c r hh))

/-- An input array of a region, which the region never writes back, keeps its contents through it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W3_arg0 (c : Dev nD) : W3 m c (Proc.devRef .tc main_arg0) = m ((c : Thread nD τ).loc main_arg0) :=
  (W3_of_ne m c main_arg0 (by decide)).trans ((W2_in m c 1 rfl).trans (Gen.V1_of m c main_arg0 (by decide)))
theorem W3_arg1 (c : Dev nD) : W3 m c (Proc.devRef .tc main_arg1) = m ((c : Thread nD τ).loc main_arg1) :=
  (W3_of_ne m c main_arg1 (by decide)).trans ((W2_in m c 0 rfl).trans (Gen.V1_of m c main_arg1 (by decide)))
theorem W3_arg2 (c : Dev nD) : W3 m c (Proc.devRef .tc main_arg2) = m ((c : Thread nD τ).loc main_arg2) :=
  (W3_of_ne m c main_arg2 (by decide)).trans ((W2_in m c 2 rfl).trans (Gen.V1_of m c main_arg2 (by decide)))
theorem W3_arg3 (c : Dev nD) : W3 m c (Proc.devRef .tc main_arg3) = m ((c : Thread nD τ).loc main_arg3) :=
  W3_keep m c main_arg3 (by decide) (by decide) (by decide)
theorem W3_arg4 (c : Dev nD) : W3 m c (Proc.devRef .tc main_arg4) = m ((c : Thread nD τ).loc main_arg4) :=
  (W3_of_ne m c main_arg4 (by decide)).trans ((W2_in m c 4 rfl).trans (Gen.V1_of m c main_arg4 (by decide)))
theorem W3_arg5 (c : Dev nD) : W3 m c (Proc.devRef .tc main_arg5) = m ((c : Thread nD τ).loc main_arg5) :=
  W3_keep m c main_arg5 (by decide) (by decide) (by decide)
theorem W3_arg6 (c : Dev nD) : W3 m c (Proc.devRef .tc main_arg6) = m ((c : Thread nD τ).loc main_arg6) :=
  (W3_in m c 4 rfl).trans ((W2_of_ne m c main_arg6 (by decide)).trans (Gen.V1_of m c main_arg6 (by decide)))
theorem W3_arg7 (c : Dev nD) : W3 m c (Proc.devRef .tc main_arg7) = m ((c : Thread nD τ).loc main_arg7) :=
  W3_keep m c main_arg7 (by decide) (by decide) (by decide)

/-- The run with the result buffer named and the arguments unchanged. -/
theorem run_value : θ_run defs (onTc (τ := τ) (main (F := F))) ⟨m, fun _ => 0, ρ⟩ (fun r => ∀ c : Dev nD,
      r.2.mem ((c.tc : Thread nD τ).loc main_v4) = W3 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v4 (by decide)),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c),
     (h c _ (mem_uc main_arg5 (by decide))).trans (W3_arg5 m c),
     (h c _ (mem_uc main_arg6 (by decide))).trans (W3_arg6 m c),
     (h c _ (mem_uc main_arg7 (by decide))).trans (W3_arg7 m c)⟩) (run_all m ρ)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.Kernel.Hand

end
-- ==== Proof.KI.Base.lean ====
/-
  The two kernel regions' proof data, stated once for every float instance: what each region's body leaves in
  its windows' staging buffers and in its scratch, as pure functions of the arrays the region is entered with.

  Region 0 (25 row blocks of 400 rows): the scratch holds the support x·W1 from the first point on; at block t the
  three outputs are the bf16 copy of the adjacency block, relu(adj_t · (x·W1) + b1) and that times W2.
  Region 1 (20 points): at point t < 10 rows 1000·t … 1000·t+999 of the scratch receive
  (relu(adj_t · s2 + b2) + h1_t) · W3; at point t ≥ 10 the output block 19 − t is adj_(19−t) · scratch + b3, the
  scratch then holding all ten slices.
-/
import proofs.«179938_g5239860101595_cont_sun_m_358_21_alg».proof.Proof.Gen.KernelIdeal.Launch
import proofs.«179938_g5239860101595_cont_sun_m_358_21_alg».proof.Proof.Gen.KernelIdeal.Skeleton
import proofs.«179938_g5239860101595_cont_sun_m_358_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point of region 0. -/
abbrev t00 : Fin cfg0.N := ⟨0, by decide⟩

/-- The adjacency's row block `t`, the features, the two weight matrices and the bias row, at their literal types. -/
abbrev adjB (c : Dev nD) (t : Fin cfg0.N) : Vec F S400x10000 .f32 := iblk0 V c 0 t
abbrev xA (c : Dev nD) (t : Fin cfg0.N) : Vec F S10000x128 .f32 := iblk0 V c 1 t
abbrev w1A (c : Dev nD) (t : Fin cfg0.N) : Vec F S128x128 .f32 := iblk0 V c 2 t
abbrev b1A (c : Dev nD) (t : Fin cfg0.N) : Vec F S1x128 .f32 := iblk0 V c 3 t
abbrev w2A (c : Dev nD) (t : Fin cfg0.N) : Vec F S128x128 .f32 := iblk0 V c 4 t

/-- The support x·W1 the first point leaves in the scratch (every later point finds it there). -/
def S1 (c : Dev nD) : Vec F S10000x128 .bf16 := k0_pay1 (xA V c t00) (w1A V c t00)

/-- What point `t` leaves in the three output windows' buffers. -/
def out0_5 (c : Dev nD) (t : Fin cfg0.N) : Vec F S400x10000 .bf16 := k0_pay2 (adjB V c t)
def out0_6 (c : Dev nD) (t : Fin cfg0.N) : Vec F S400x128 .bf16 := k0_pay3 (adjB V c t) (S1 V c) (b1A V c t)
def out0_7 (c : Dev nD) (t : Fin cfg0.N) : Vec F S400x128 .bf16 := k0_pay4 (adjB V c t) (S1 V c) (b1A V c t) (w2A V c t)

/-- Region 0's scratch as a whole memref. -/
abbrev scM0 : Memref sig .tc .vmem S10000x128 .bf16 := Memref.whole cc0_scratch0

/-- The core's scoped buffers that region 0 neither stages nor uses: each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- Region 0's invariant before point `n`: at the first point the class's; afterwards the scratch at x·W1. -/
def Phi0 (c : Dev nD) : ℕ → sProp 𝕄
  | 0 => Pipeline.ΦA spec0 c
  | _ + 1 => iprop(owns (c : Thread nD τ) scM0 fullShare (S1 V c) ∗ rest0 (F := F) c ∗ (∃ r, prngReg c r))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The bf16 adjacency's row block at point `t` (block t, then 19 − t), the support s2, the bias rows, the h1 block
    (block min t 9) and W3, at their literal types. -/
abbrev a16B (c : Dev nD) (t : Fin cfg1.N) : Vec F S1000x10000 .bf16 := iblk1 V c 0 t
abbrev s2A (c : Dev nD) (t : Fin cfg1.N) : Vec F S10000x128 .bf16 := iblk1 V c 1 t
abbrev b2A (c : Dev nD) (t : Fin cfg1.N) : Vec F S1x128 .f32 := iblk1 V c 2 t
abbrev h1B (c : Dev nD) (t : Fin cfg1.N) : Vec F S1000x128 .bf16 := iblk1 V c 3 t
abbrev w3A (c : Dev nD) (t : Fin cfg1.N) : Vec F S128x128 .f32 := iblk1 V c 4 t
abbrev b3A (c : Dev nD) (t : Fin cfg1.N) : Vec F S1x128 .f32 := iblk1 V c 5 t

/-- The slice of 1000 rows point `t` (of the first ten) stores into the scratch. -/
def P1 (c : Dev nD) (t : Fin cfg1.N) : Vec F S1000x128 .bf16 :=
  k1_pay1 (a16B V c t) (s2A V c t) (b2A V c t) (h1B V c t) (w3A V c t)

theorem row_lt (y : S10000x128.Idx) : (y 0).val / 1000 < cfg1.N := by
  have h := ValueIdx.idx2_lt0 y; have hN : cfg1.N = 20 := N_1; omega

/-- The scratch once the first ten points have run: row r is row r mod 1000 of slice r / 1000. -/
def S3 (c : Dev nD) : Vec F S10000x128 .bf16 := fun y =>
  P1 V c ⟨(y 0).val / 1000, row_lt y⟩
    (ValueIdx.ix2 (⟨(y 0).val % 1000, Nat.mod_lt _ (by decide)⟩ : Fin 1000) (⟨(y 1).val, ValueIdx.idx2_lt1 y⟩ : Fin 128))

/-- What a point of the last ten leaves in the output window's buffer. -/
def out1_6 (c : Dev nD) (t : Fin cfg1.N) : Vec F S1000x128 .f32 := k1_pay2 (a16B V c t) (S3 V c) (b3A V c t)

/-- Region 1's scratch as a whole memref. -/
abbrev scM1 : Memref sig .tc .vmem S10000x128 .bf16 := Memref.whole cc1_scratch0

/-- The core's scoped buffers that region 1 neither stages nor uses: each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- Region 1's invariant before point `n`: the scratch at contents whose rows below 1000 · min n 10 are the
    slices' (the rest whatever the region found there). -/
def Phi1 (c : Dev nD) (n : ℕ) : sProp 𝕄 :=
  iprop((∃ d : Vec F S10000x128 .bf16, ⌜∀ y : S10000x128.Idx, (y 0).val < 1000 * min n 10 → d y = S3 V c y⌝
      ∗ owns (c : Thread nD τ) scM1 fullShare d) ∗ rest1 (F := F) c ∗ (∃ r, prngReg c r))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

end Cert.KernelIdeal.Hand

end
-- ==== Proof.KI.R0Body.lean ====
/-
  Region 0's body, point by point: the first point computes the support x·W1 into the scratch; every point then
  casts its adjacency block, multiplies it with the support, adds the bias, rectifies, and multiplies by W2.
-/
import proofs.«179938_g5239860101595_cont_sun_m_358_21_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two zero offsets, as the constant function. -/
theorem r0_z2 : (![0, 0] : Fin 2 → ℕ) = fun _ => 0 := by funext a; fin_cases a <;> rfl

/-- A load through the whole-shape rectangle at zero offsets reads the view's contents. -/
theorem r0_readAt_unit_zero {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store through the whole-shape rectangle at zero offsets leaves its payload. -/
theorem r0_read_store_unit_zero {κ : Kind} {sp : Space} {S : Shape} {e : EltTy} (v : View sig κ sp S e) (f : v.ty.Contents (Elt F))
    {off : Fin S.rank → Nat} (h : off = fun _ => 0) (inb : ∀ a, off a + S.size a ≤ S.size a) (w w' : S.Idx → Elt F e) (hw : w = w') :
    v.read (Elt F) (v.writes (Elt F) f [(⟨Rect.unit off S.size inb, w⟩ : View.Piece (Elt F) S e)]) = w' := by
  subst hw
  exact (View.read_writes_eq_canon v f _ (fun y => ⟨_, List.mem_singleton_self _, View.mem_set_unit_zero h inb y⟩)).trans
    (View.canon_unit_zero h inb w)

/-- Associativity of the separating conjunction, as an equation. -/
theorem r0_sep_assoc_eq (A B C : sProp 𝕄) : (iprop((A ∗ B) ∗ C) : sProp 𝕄) = iprop(A ∗ B ∗ C) := by
  have h₁ : (iprop((A ∗ B) ∗ C) : sProp 𝕄) ⊢ iprop(A ∗ B ∗ C) := by
    iintro ⟨⟨HA, HB⟩, HC⟩
    isplitl [HA]; · iexact HA
    isplitl [HB]; · iexact HB
    iexact HC
  have h₂ : (iprop(A ∗ B ∗ C) : sProp 𝕄) ⊢ iprop((A ∗ B) ∗ C) := by
    iintro ⟨HA, HB, HC⟩
    isplitl [HA HB]
    · isplitl [HA]; · iexact HA
      iexact HB
    iexact HC
  exact BI.equiv_iff.mp ⟨h₁, h₂⟩

/-- The class invariant of region 0 with the scratch split off. -/
theorem PhiA0_eq (c : Dev nD) :
    (Pipeline.ΦA spec0 c : sProp 𝕄)
      = iprop((∃ d, owns (c : Thread nD τ) scM0 fullShare d) ∗ rest0 (F := F) c ∗ (∃ r, prngReg c r)) := by
  unfold Pipeline.ΦA; rw [scopedRest0_eq]; simp only [scM0, owns_whole]; unfold rest0
  exact r0_sep_assoc_eq _ _ _

/-- The invariant at a point's start, restated at the point's number. -/
theorem Phi0_castSucc (c : Dev nD) (t : Fin cfg0.N) : (dat0 V c).Φ t.castSucc = Phi0 V c t.val := by
  dsimp only [dat0]; simp only [Fin.coe_castSucc]

/-- Before a point that is not the first, the scratch holds the support. -/
theorem Phi0_pos (c : Dev nD) (n : ℕ) (hn : n ≠ 0) :
    Phi0 V c n = iprop(owns (c : Thread nD τ) scM0 fullShare (S1 V c) ∗ rest0 (F := F) c ∗ (∃ r, prngReg c r)) := by
  cases n with
  | zero => exact absurd rfl hn
  | succ n => rfl

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The body's one branch condition, from the grid coordinates. -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at a later point, on whole staging memrefs: the inputs at their contents, the outputs at anything, the
    scratch at `xs`; it leaves the inputs and the scratch as they were and the outputs at the three payloads. -/
theorem sound_kernel0_later (c : Dev nD) (E : Set ℕ) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S400x10000 .bf16) (harg6 : arg6.IsWhole)
    (arg7 : Memref sig .tc .vmem S400x128 .bf16) (harg7 : arg7.IsWhole)
    (arg8 : Memref sig .tc .vmem S400x128 .bf16) (harg8 : arg8.IsWhole)
    (arg9 : Memref sig .tc .vmem S10000x128 .bf16) (harg9 : arg9.IsWhole)
    (hc : ¬cond0 i)
    (x0 : Vec F S400x10000 .f32) (x1 : Vec F S10000x128 .f32) (x2 : Vec F S128x128 .f32) (x3 : Vec F S1x128 .f32) (x4 : Vec F S128x128 .f32) (xs : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 xs x3)
            ∗ owns (c : Thread nD τ) arg8 fullShare (k0_pay4 x0 xs x3 x4) ∗ owns (c : Thread nD τ) arg9 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
  subst hf0; subst hf1; subst hf2; subst hf3; subst hf4; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact r0_read_store_unit_zero _ _ r0_z2 _ _ _ (by rw [r0_readAt_unit_zero _ _ r0_z2])
  isplitl [H6]
  · iexists _; isplitr
    swap; · iexact H6
    ipureintro
    exact r0_read_store_unit_zero _ _ r0_z2 _ _ _ (by rw [r0_readAt_unit_zero _ _ r0_z2, r0_readAt_unit_zero _ _ r0_z2, r0_readAt_unit_zero _ _ r0_z2])
  isplitl [H7]
  · iexists _; isplitr
    swap; · iexact H7
    ipureintro
    exact r0_read_store_unit_zero _ _ r0_z2 _ _ _ (by rw [r0_readAt_unit_zero _ _ r0_z2, r0_readAt_unit_zero _ _ r0_z2, r0_readAt_unit_zero _ _ r0_z2, r0_readAt_unit_zero _ _ r0_z2])
  iexists fs; isplitr; · ipureintro; rfl
  iexact HS

set_option maxHeartbeats 1000000 in
/-- The body at the first point, on whole staging memrefs: the inputs at their contents, the outputs and the scratch
    at anything; it leaves the inputs as they were, the scratch at the support x·W1 and the outputs at the three
    payloads over that support. -/
theorem sound_kernel0_first (c : Dev nD) (E : Set ℕ) (i : grid0.Coords)
    (arg1 : Memref sig .tc .vmem S400x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S400x10000 .bf16) (harg6 : arg6.IsWhole)
    (arg7 : Memref sig .tc .vmem S400x128 .bf16) (harg7 : arg7.IsWhole)
    (arg8 : Memref sig .tc .vmem S400x128 .bf16) (harg8 : arg8.IsWhole)
    (arg9 : Memref sig .tc .vmem S10000x128 .bf16) (harg9 : arg9.IsWhole)
    (hc : cond0 i)
    (x0 : Vec F S400x10000 .f32) (x1 : Vec F S10000x128 .f32) (x2 : Vec F S128x128 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 (k0_pay1 x1 x2) x3)
            ∗ owns (c : Thread nD τ) arg8 fullShare (k0_pay4 x0 (k0_pay1 x1 x2) x3 x4) ∗ owns (c : Thread nD τ) arg9 fullShare (k0_pay1 x1 x2)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact r0_read_store_unit_zero _ _ r0_z2 _ _ _ (by rw [r0_readAt_unit_zero _ _ r0_z2])
  isplitl [H6]
  · iexists _; isplitr
    swap; · iexact H6
    ipureintro
    sl_unfold_run_names
    exact r0_read_store_unit_zero _ _ r0_z2 _ _ _ (by rw [View.readCov_unit_zero _ r0_z2, r0_readAt_unit_zero _ _ r0_z2, r0_readAt_unit_zero _ _ r0_z2, r0_readAt_unit_zero _ _ r0_z2, r0_readAt_unit_zero _ _ r0_z2])
  isplitl [H7]
  · iexists _; isplitr
    swap; · iexact H7
    ipureintro
    sl_unfold_run_names
    exact r0_read_store_unit_zero _ _ r0_z2 _ _ _ (by rw [View.readCov_unit_zero _ r0_z2, r0_readAt_unit_zero _ _ r0_z2, r0_readAt_unit_zero _ _ r0_z2, r0_readAt_unit_zero _ _ r0_z2, r0_readAt_unit_zero _ _ r0_z2, r0_readAt_unit_zero _ _ r0_z2])
  iexists _; isplitr
  swap; · iexact HS
  ipureintro
  sl_unfold_run_names
  exact r0_read_store_unit_zero _ _ r0_z2 _ _ _ (by rw [r0_readAt_unit_zero _ _ r0_z2, r0_readAt_unit_zero _ _ r0_z2])

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks; at the first point the invariant hands over the
    scratch at anything and takes it back at the support, at a later point it hands it over and takes it back at the
    support; the rest of the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(owns (c : Thread nD τ) scM0 fullShare (S1 V c) ∗ rest0 (F := F) c ∗ (∃ r, prngReg c r)) from rfl,
    after0_0, after0_1, after0_2, after0_3, after0_4, after0_5, after0_6, after0_7, Phi0_castSucc]
  unfold out0_5 out0_6 out0_7
  by_cases hz : t.val = 0
  · have hS : S1 V c = k0_pay1 (xA V c t) (w1A V c t) := by
      have ht : t = t00 := Fin.ext hz
      rw [ht]; rfl
    rw [hz, show Phi0 V c 0 = Pipeline.ΦA spec0 c from rfl, PhiA0_eq, hS]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords t) _ _ _ _ _ _ _ _ _ _ _ _ _ _ _ _ _ _ ((hcond0 t).mpr hz)
      (adjB V c t) (xA V c t) (w1A V c t) (b1A V c t) (w2A V c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi0_pos V c t.val hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_later c Set.univ (grid0.coords t) _ _ _ _ _ _ _ _ _ _ _ _ _ _ _ _ _ _ (fun h => hz ((hcond0 t).mp h))
      (adjB V c t) (xA V c t) (w1A V c t) (b1A V c t) (w2A V c t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point. -/
theorem hin0 (c : Dev nD) : Pipeline.ΦA spec0 c ⊢ (dat0 V c).Φ 0 := by
  show Pipeline.ΦA spec0 c ⊢ Phi0 V c 0
  exact .rfl

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = iprop(owns (c : Thread nD τ) scM0 fullShare (S1 V c) ∗ rest0 (F := F) c ∗ (∃ r, prngReg c r)) from rfl, PhiA0_eq]
  iintro ⟨HS, Hr⟩
  isplitl [HS]; · iexists _; iexact HS
  iexact Hr

end Cert.KernelIdeal.Hand

end
-- ==== Proof.KI.R1Body.lean ====
/-
  Region 1's body, point by point: each of the first ten points stores one slice of 1000 rows of
  (relu(adj_t · s2 + b2) + h1_t) · W3 into the scratch; each of the last ten reads the whole scratch and stores
  adj_(19−t) · scratch + b3 into the output window.
-/
import proofs.«179938_g5239860101595_cont_sun_m_358_21_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

theorem r1_zero2 : (![0, 0] : Fin 2 → Nat) = fun _ => 0 := funext fun a => by fin_cases a <;> rfl

/-- A load of a whole buffer through the whole rectangle reads the contents. -/
theorem r1_readAt_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole rectangle leaves its payload, whatever the buffer held. -/
theorem r1_read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h; funext y
  have e := View.read_writes_cons_emb v f (Rect.whole S) w [] y
  rw [Rect.emb_whole_apply] at e
  exact e

/-! ## The two conditions, the scratch slice's offsets and the output window's idle points, over the grid -/

theorem r1_hcond1 : ∀ t : Fin cfg1.N, k1_cond1 (grid1.coords t) = 1#1 ↔ t.val < 10 :=
  (by decide +kernel : ∀ t : Fin grid1.N, k1_cond1 (grid1.coords t) = 1#1 ↔ t.val < 10)
theorem r1_hcond2 : ∀ t : Fin cfg1.N, k1_cond2 (grid1.coords t) = 1#1 ↔ 10 ≤ t.val :=
  (by decide +kernel : ∀ t : Fin grid1.N, k1_cond2 (grid1.coords t) = 1#1 ↔ 10 ≤ t.val)
theorem r1_coord0 : ∀ t : Fin cfg1.N, ((grid1.coords t) 0).val = t.val :=
  (by decide +kernel : ∀ t : Fin grid1.N, ((grid1.coords t) 0).val = t.val)
theorem r1_idleAt6 : ∀ t : Fin cfg1.N, t.val < 10 → cfg1.idle 6 (grid1.coords t) = true := by decide +kernel
theorem r1_noFlush6 : ∀ t : Fin cfg1.N, t.val < 10 → (cfg1.win 6).flush t = false := by decide +kernel
theorem r1_liveAt6 : ∀ t : Fin cfg1.N, 10 ≤ t.val → cfg1.idle 6 (grid1.coords t) = false := by decide +kernel
theorem r1_liveAt0 : ∀ t : Fin cfg1.N, cfg1.idle 0 (grid1.coords t) = false := by decide +kernel
theorem r1_liveAt1 : ∀ t : Fin cfg1.N, cfg1.idle 1 (grid1.coords t) = false := by decide +kernel
theorem r1_liveAt2 : ∀ t : Fin cfg1.N, cfg1.idle 2 (grid1.coords t) = false := by decide +kernel
theorem r1_liveAt3 : ∀ t : Fin cfg1.N, cfg1.idle 3 (grid1.coords t) = false := by decide +kernel
theorem r1_liveAt4 : ∀ t : Fin cfg1.N, cfg1.idle 4 (grid1.coords t) = false := by decide +kernel
theorem r1_liveAt5 : ∀ t : Fin cfg1.N, cfg1.idle 5 (grid1.coords t) = false := by decide +kernel

/-! ## Each input window's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The kernel on whole memrefs, in each of the two cases the grid meets -/

set_option maxHeartbeats 2000000 in
/-- A point of the first ten, on whole memrefs: the inputs and the output window's buffer come back as they were; the
    scratch comes back with the slice's rows at the payload of the five inputs, every other row as it was. -/
theorem run1_first (c : Dev nD) (E : Set ℕ) (i : grid1.Coords)
    (arg1 : Memref sig .tc .vmem S1000x10000 .bf16) (harg1 : arg1.IsWhole)
    (arg2 : Memref sig .tc .vmem S10000x128 .bf16) (harg2 : arg2.IsWhole)
    (arg3 : Memref sig .tc .vmem S1x128 .f32) (harg3 : arg3.IsWhole)
    (arg4 : Memref sig .tc .vmem S1000x128 .bf16) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (arg8 : Memref sig .tc .vmem S10000x128 .bf16) (harg8 : arg8.IsWhole)
    (hc1 : k1_cond1 i = 1#1) (hc2 : ¬ k1_cond2 i = 1#1)
    (x0 : Vec F S1000x10000 .bf16) (x1 : Vec F S10000x128 .bf16) (x2 : Vec F S1x128 .f32) (x3 : Vec F S1000x128 .bf16)
    (x4 : Vec F S128x128 .f32) (x5 : Vec F S1x128 .f32) (xi : Vec F S1000x128 .f32) (d : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare xi
            ∗ (∃ d' : Vec F S10000x128 .bf16, owns (c : Thread nD τ) arg8 fullShare d'
                ∗ ⌜(∀ x, d' ((Rect.unit (s := S10000x128) (k1_off1 i) S1000x128.size (k1_off1_inb i hc1)).emb x) = k1_pay1 x0 x1 x2 x3 x4 x)
                  ∧ (∀ y, y ∉ (Rect.unit (s := S10000x128) (k1_off1 i) S1000x128.size (k1_off1_inb i hc1)).set → d' y = d y)⌝)) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _
  isplitl [H7]
  · iexists _; isplitr
    swap; · iexact H7
    ipureintro; rfl
  ipureintro
  refine ⟨fun x => ?_, fun y hy => ?_⟩
  · rw [View.read_writes_cons_emb]
    simp only [r1_readAt_unit_zero (S := S1000x10000) _ _ r1_zero2, r1_readAt_unit_zero (S := S10000x128) _ _ r1_zero2, r1_readAt_unit_zero (S := S1x128) _ _ r1_zero2, r1_readAt_unit_zero (S := S1000x128) _ _ r1_zero2, r1_readAt_unit_zero (S := S128x128) _ _ r1_zero2]
  · exact View.read_writes_apply_of_forall_not_mem _ _ y _ (fun p hp => by
      obtain rfl := List.mem_singleton.mp hp; exact hy)

set_option maxHeartbeats 2000000 in
/-- A point of the last ten, on whole memrefs: the inputs and the scratch come back as they were; the output window's
    buffer comes back at the payload of the adjacency block, the scratch and the last bias row. -/
theorem run1_last (c : Dev nD) (E : Set ℕ) (i : grid1.Coords)
    (arg1 : Memref sig .tc .vmem S1000x10000 .bf16) (harg1 : arg1.IsWhole)
    (arg2 : Memref sig .tc .vmem S10000x128 .bf16) (harg2 : arg2.IsWhole)
    (arg3 : Memref sig .tc .vmem S1x128 .f32) (harg3 : arg3.IsWhole)
    (arg4 : Memref sig .tc .vmem S1000x128 .bf16) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (arg8 : Memref sig .tc .vmem S10000x128 .bf16) (harg8 : arg8.IsWhole)
    (hc1 : ¬ k1_cond1 i = 1#1) (hc2 : k1_cond2 i = 1#1)
    (x0 : Vec F S1000x10000 .bf16) (x1 : Vec F S10000x128 .bf16) (x2 : Vec F S1x128 .f32) (x3 : Vec F S1000x128 .bf16)
    (x4 : Vec F S128x128 .f32) (x5 : Vec F S1x128 .f32) (xi : Vec F S1000x128 .f32) (d : Vec F S10000x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare xi ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay2 x0 d x5) ∗ owns (c : Thread nD τ) arg8 fullShare d) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (r1_read_writes_unit_zero (S := S1000x128) _ _ r1_zero2 _ _).trans ?_
    simp only [r1_readAt_unit_zero (S := S1000x10000) _ _ r1_zero2, r1_readAt_unit_zero (S := S10000x128) _ _ r1_zero2, r1_readAt_unit_zero (S := S1x128) _ _ r1_zero2, r1_readAt_unit_zero (S := S1000x128) _ _ r1_zero2, r1_readAt_unit_zero (S := S128x128) _ _ r1_zero2]
  iexists f7; isplitr; · ipureintro; rfl
  iexact H7

/-- The class invariant of region 1 with the scratch split off. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA; rw [scopedRest1_eq]; unfold rest1; simp only [scM1, owns_whole]
  refine BI.equiv_iff.mp ⟨?_, ?_⟩
  · show (_ : sProp 𝕄) ⊢ _
    iintro ⟨⟨H1, H2, H3, H4, H5, H6, H7, H8, H9, H10, H11, H12, H13, H14⟩, Hr⟩
    isplitl [H14]; · iexact H14
    isplitr [Hr]
    · iframe
    iexact Hr
  · show (_ : sProp 𝕄) ⊢ _
    iintro ⟨H14, ⟨H1, H2, H3, H4, H5, H6, H7, H8, H9, H10, H11, H12, H13⟩, Hr⟩
    isplitr [Hr]
    · iframe
    iexact Hr

/-! ## The body obligation, at a generic point -/

/-- Each window's current staging memref at point `t`, as the pipeline passes it, and its wholeness. -/
abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- One more slice: contents that agree with the ten slices on the rows below 1000·t, overwritten on rows
    1000·t … 1000·t+999 by slice t, agree with them on the rows below 1000·(t+1). -/
theorem slice_step1 (c : Dev nD) (t : Fin cfg1.N) (ht : t.val < 10) (hc1 : k1_cond1 (grid1.coords t) = 1#1)
    (d d' : Vec F S10000x128 .bf16)
    (hd : ∀ y : S10000x128.Idx, (y 0).val < 1000 * min t.val 10 → d y = S3 V c y)
    (h1 : ∀ x, d' ((Rect.unit (s := S10000x128) (k1_off1 (grid1.coords t)) S1000x128.size (k1_off1_inb (grid1.coords t) hc1)).emb x) = P1 V c t x)
    (h2 : ∀ y, y ∉ (Rect.unit (s := S10000x128) (k1_off1 (grid1.coords t)) S1000x128.size (k1_off1_inb (grid1.coords t) hc1)).set → d' y = d y) :
    ∀ y : S10000x128.Idx, (y 0).val < 1000 * min (t.val + 1) 10 → d' y = S3 V c y := by
  intro y hy
  have hy0 := ValueIdx.idx2_lt0 y
  have hy1 := ValueIdx.idx2_lt1 y
  have hoff0 : k1_off1 (grid1.coords t) 0 = 1000 * t.val := by rw [k1_off1_eq, r1_coord0]; rfl
  have hoff1 : k1_off1 (grid1.coords t) 1 = 0 := by rw [k1_off1_eq]; rfl
  by_cases hlo : (y 0).val < 1000 * t.val
  · rw [h2 y (by
      rw [Rect.mem_set_unit]; intro hall
      have h0 := (hall 0).1; rw [hoff0] at h0; omega)]
    exact hd y (by omega)
  · have hx0 : (y 0).val - 1000 * t.val < 1000 := by omega
    have hemb : (Rect.unit (s := S10000x128) (k1_off1 (grid1.coords t)) S1000x128.size (k1_off1_inb (grid1.coords t) hc1)).emb
        (ValueIdx.ix2 (⟨(y 0).val - 1000 * t.val, hx0⟩ : Fin 1000) (⟨(y 1).val, hy1⟩ : Fin 128)) = y := by
      funext a
      refine Fin.ext ?_
      rw [Rect.emb_apply]
      match a with
      | ⟨0, _⟩ => show k1_off1 (grid1.coords t) 0 + 1 * ((y 0).val - 1000 * t.val) = (y 0).val; rw [hoff0]; omega
      | ⟨1, _⟩ => show k1_off1 (grid1.coords t) 1 + 1 * (y 1).val = (y 1).val; rw [hoff1]; omega
    have e := h1 (ValueIdx.ix2 (⟨(y 0).val - 1000 * t.val, hx0⟩ : Fin 1000) (⟨(y 1).val, hy1⟩ : Fin 128))
    rw [hemb] at e
    rw [e]; unfold S3
    have ht' : (⟨(y 0).val / 1000, row_lt y⟩ : Fin cfg1.N) = t := Fin.ext (by show (y 0).val / 1000 = t.val; omega)
    rw [ht']
    congr 1
    funext a
    match a with
    | ⟨0, _⟩ => exact Fin.ext (by show (y 0).val - 1000 * t.val = (y 0).val % 1000; omega)
    | ⟨1, _⟩ => rfl

set_option maxHeartbeats 4800000 in
/-- The body at any point. At a point of the first ten the scratch comes back with one more slice in place and the output
    window's buffer untouched; at a point of the last ten the scratch holds all ten slices, comes back unchanged, and the
    output window's buffer holds the block computed from it. The inputs hold their blocks throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  rw [show (dat1 V c).leavesExact 0 t = owns (c : Thread nD τ) (ms1_0 t) fullShare ((dat1 V c).after 0 t) from by
      unfold Dat.leavesExact; rw [r1_liveAt0 t], after1_0]
  rw [show (dat1 V c).leavesExact 1 t = owns (c : Thread nD τ) (ms1_1 t) fullShare ((dat1 V c).after 1 t) from by
      unfold Dat.leavesExact; rw [r1_liveAt1 t], after1_1]
  rw [show (dat1 V c).leavesExact 2 t = owns (c : Thread nD τ) (ms1_2 t) fullShare ((dat1 V c).after 2 t) from by
      unfold Dat.leavesExact; rw [r1_liveAt2 t], after1_2]
  rw [show (dat1 V c).leavesExact 3 t = owns (c : Thread nD τ) (ms1_3 t) fullShare ((dat1 V c).after 3 t) from by
      unfold Dat.leavesExact; rw [r1_liveAt3 t], after1_3]
  rw [show (dat1 V c).leavesExact 4 t = owns (c : Thread nD τ) (ms1_4 t) fullShare ((dat1 V c).after 4 t) from by
      unfold Dat.leavesExact; rw [r1_liveAt4 t], after1_4]
  rw [show (dat1 V c).leavesExact 5 t = owns (c : Thread nD τ) (ms1_5 t) fullShare ((dat1 V c).after 5 t) from by
      unfold Dat.leavesExact; rw [r1_liveAt5 t], after1_5]
  have hN : t.val < 20 := lt_of_lt_of_eq t.isLt (show cfg1.N = 20 from N_1)
  unfold Phi1
  by_cases h : t.val < 10
  · have hc1 : k1_cond1 (grid1.coords t) = 1#1 := (r1_hcond1 t).mpr h
    have hc2 : ¬ k1_cond2 (grid1.coords t) = 1#1 := fun h' => by have := (r1_hcond2 t).mp h'; omega
    rw [Dat.leavesExact_idle (dat1 V c) 6 t (r1_idleAt6 t h) (r1_noFlush6 t h)]
    iintro ⟨⟨⟨%d, %hd, HS⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply (run1_first c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) _ d _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%d', HS, %hd'⟩⟩
    isplitl [HS Hrest Hg]
    · isplitl [HS]
      · iexists d'; isplitr
        · ipureintro; exact slice_step1 V c t h hc1 d d' hd hd'.1 hd'.2
        iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc1 : ¬ k1_cond1 (grid1.coords t) = 1#1 := fun h' => h ((r1_hcond1 t).mp h')
    have hc2 : k1_cond2 (grid1.coords t) = 1#1 := (r1_hcond2 t).mpr (by omega)
    rw [show (dat1 V c).leavesExact 6 t = owns (c : Thread nD τ) (ms1_6 t) fullShare ((dat1 V c).after 6 t) from by
        unfold Dat.leavesExact; rw [r1_liveAt6 t (by omega)], after1_6]
    unfold out1_6
    iintro ⟨⟨⟨%d, %hd, HS⟩, Hrest, Hg⟩, Ho, ⟨%d0, H0⟩, ⟨%d1, H1⟩, ⟨%d2, H2⟩, ⟨%d3, H3⟩, ⟨%d4, H4⟩, ⟨%d5, H5⟩, ⟨%d6, H6⟩⟩
    obtain rfl : d = S3 V c := funext fun y => hd y (by have := ValueIdx.idx2_lt0 y; omega)
    iapply (run1_last c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) _ (S3 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hrest Hg]
    · isplitl [HS]
      · iexists (S3 V c); isplitr
        · ipureintro; exact fun _ _ => rfl
        iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point (no row of the scratch is claimed yet). -/
theorem hin1 (c : Dev nD) : Pipeline.ΦA spec1 c ⊢ (dat1 V c).Φ 0 := by
  rw [show (dat1 V c).Φ 0 = Phi1 V c 0 from rfl, PhiA1_eq]; unfold Phi1
  iintro ⟨⟨%d, HS⟩, Hrest, Hg⟩
  isplitl [HS]
  · iexists d; isplitr
    · ipureintro; intro y hy; exact absurd hy (by omega)
    iexact HS
  isplitl [Hrest]; · iexact Hrest
  iexact Hg

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_eq]; unfold Phi1
  iintro ⟨⟨%d, -, HS⟩, Hrest, Hg⟩
  isplitl [HS]
  · iexists d; iexact HS
  isplitl [Hrest]; · iexact Hrest
  iexact Hg

end Cert.KernelIdeal.Hand

end
-- ==== Proof.KI.Run.lean ====
/-
  The whole program's run: three reshapes of the bias vectors on the host, then the two kernel regions. Between
  items every unscoped buffer of the core is held at a named valuation: the launch memory, then the reshapes'
  results, then region 0's three output arrays at what its 25 write-backs leave, then region 1's output array at
  what its ten write-backs leave. Every weakly fair execution terminates and ends at that last valuation; no item
  writes an argument array.
-/
import proofs.«179938_g5239860101595_cont_sun_m_358_21_alg».proof.Proof.KI.R0Body
import proofs.«179938_g5239860101595_cont_sun_m_358_21_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution of @main terminates, and the final memory holds every unscoped buffer of every core
    at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KI.Frame.lean ====
/-
  From the run to the claims' posts: the result buffer ends at the last valuation's contents, and every argument
  buffer ends as launched, since neither a reshape nor a kernel region writes an argument.
-/
import proofs.«179938_g5239860101595_cont_sun_m_358_21_alg».proof.Proof.KI.Run
import proofs.«179938_g5239860101595_cont_sun_m_358_21_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is neither a reshape's result nor an array of either region holds its launch contents at the end. -/
theorem W3_keep (c : Dev nD) (r : Ref sig .tc) (h1 : ∀ w, Pipeline.arrRef spec1 w ≠ r) (h0 : ∀ w, Pipeline.arrRef spec0 w ≠ r)
    (hh : r ∉ Gen.hostOps0_W) : W3 m c (Proc.devRef .tc r) = m ((c : Thread nD τ).loc r) :=
  (W3_of_ne m c r h1).trans ((W2_of_ne m c r h0).trans (Gen.V1_of m c r hh))

/-- An input array of a region, which the region never writes back, keeps its contents through it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W3_arg0 (c : Dev nD) : W3 m c (Proc.devRef .tc main_arg0) = m ((c : Thread nD τ).loc main_arg0) :=
  (W3_of_ne m c main_arg0 (by decide)).trans ((W2_in m c 1 rfl).trans (Gen.V1_of m c main_arg0 (by decide)))
theorem W3_arg1 (c : Dev nD) : W3 m c (Proc.devRef .tc main_arg1) = m ((c : Thread nD τ).loc main_arg1) :=
  (W3_of_ne m c main_arg1 (by decide)).trans ((W2_in m c 0 rfl).trans (Gen.V1_of m c main_arg1 (by decide)))
theorem W3_arg2 (c : Dev nD) : W3 m c (Proc.devRef .tc main_arg2) = m ((c : Thread nD τ).loc main_arg2) :=
  (W3_of_ne m c main_arg2 (by decide)).trans ((W2_in m c 2 rfl).trans (Gen.V1_of m c main_arg2 (by decide)))
theorem W3_arg3 (c : Dev nD) : W3 m c (Proc.devRef .tc main_arg3) = m ((c : Thread nD τ).loc main_arg3) :=
  W3_keep m c main_arg3 (by decide) (by decide) (by decide)
theorem W3_arg4 (c : Dev nD) : W3 m c (Proc.devRef .tc main_arg4) = m ((c : Thread nD τ).loc main_arg4) :=
  (W3_of_ne m c main_arg4 (by decide)).trans ((W2_in m c 4 rfl).trans (Gen.V1_of m c main_arg4 (by decide)))
theorem W3_arg5 (c : Dev nD) : W3 m c (Proc.devRef .tc main_arg5) = m ((c : Thread nD τ).loc main_arg5) :=
  W3_keep m c main_arg5 (by decide) (by decide) (by decide)
theorem W3_arg6 (c : Dev nD) : W3 m c (Proc.devRef .tc main_arg6) = m ((c : Thread nD τ).loc main_arg6) :=
  (W3_in m c 4 rfl).trans ((W2_of_ne m c main_arg6 (by decide)).trans (Gen.V1_of m c main_arg6 (by decide)))
theorem W3_arg7 (c : Dev nD) : W3 m c (Proc.devRef .tc main_arg7) = m ((c : Thread nD τ).loc main_arg7) :=
  W3_keep m c main_arg7 (by decide) (by decide) (by decide)

/-- The run with the result buffer named and the arguments unchanged. -/
theorem run_value : θ_run defs (onTc (τ := τ) (main (F := F))) ⟨m, fun _ => 0, ρ⟩ (fun r => ∀ c : Dev nD,
      r.2.mem ((c.tc : Thread nD τ).loc main_v4) = W3 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v4 (by decide)),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c),
     (h c _ (mem_uc main_arg5 (by decide))).trans (W3_arg5 m c),
     (h c _ (mem_uc main_arg6 (by decide))).trans (W3_arg6 m c),
     (h c _ (mem_uc main_arg7 (by decide))).trans (W3_arg7 m c)⟩) (run_all m ρ)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.KernelIdeal.Hand

end
-- ==== Proof.Spec.lean ====
/-
  The three-layer graph convolution as plain mathematics over the extended reals: matrices are functions of two
  coordinates, a product is the sum over the shared coordinate, a layer is adj · (h · W) + b, and the rectifier is the
  maximum with zero. The network: h1 = relu(adj·(x·W1) + b1); h2 = relu(adj·(h1·W2) + b2) + h1; out = adj·(h2·W3) + b3.
-/
import Idealize.ShloMosaic.PureOps.Ideal
import Idealize.ShloMosaic.Lib.ValueIdx

noncomputable section

open scoped BigOperators

namespace Cert.Spec

open Idealize.ShloMosaic

/-- A rank-2 array of extended reals read by its two coordinates. -/
def mat {r c : Nat} (X : (⟨2, ![r, c]⟩ : Shape).Idx → EReal) : Fin r → Fin c → EReal := fun a b => X (ValueIdx.ix2 a b)
/-- The one row of a 1 × c array. -/
def row1 {c : Nat} (X : (⟨2, ![1, c]⟩ : Shape).Idx → EReal) : Fin c → EReal := fun b => X (ValueIdx.ix2 (0 : Fin 1) b)
/-- A rank-1 array read by its coordinate. -/
def vec {c : Nat} (X : (⟨1, ![c]⟩ : Shape).Idx → EReal) : Fin c → EReal := fun b => X (ValueIdx.ix1 b)

/-- The matrix product: entry (i, j) is the sum over l of A i l · B l j. -/
def mm {r k c : Nat} (A : Fin r → Fin k → EReal) (B : Fin k → Fin c → EReal) : Fin r → Fin c → EReal :=
  fun i j => ∑ l : Fin k, A i l * B l j

/-- The first hidden layer: relu(adj · (x · W1) + b1). -/
def h1 {n d e : Nat} (adj : Fin n → Fin n → EReal) (x : Fin n → Fin d → EReal) (W1 : Fin d → Fin e → EReal) (b1 : Fin e → EReal) :
    Fin n → Fin e → EReal :=
  fun i j => max (mm adj (mm x W1) i j + b1 j) 0

/-- The second and third layers from the support s2 = h1 · W2 and the hidden layer h1 it came from:
    h2 = relu(a · s2 + b2) + h1, out = a · (h2 · W3) + b3. -/
def layer23 {n d e : Nat} (a : Fin n → Fin n → EReal) (s2 : Fin n → Fin d → EReal) (b2 : Fin d → EReal)
    (h : Fin n → Fin d → EReal) (W3 : Fin d → Fin e → EReal) (b3 : Fin e → EReal) : Fin n → Fin e → EReal :=
  fun i j => mm a (mm (fun k l => max (mm a s2 k l + b2 l) 0 + h k l) W3) i j + b3 j

/-- The whole network. -/
def gcn {n d : Nat} (adj : Fin n → Fin n → EReal) (x : Fin n → Fin d → EReal) (W1 : Fin d → Fin d → EReal) (b1 : Fin d → EReal)
    (W2 : Fin d → Fin d → EReal) (b2 : Fin d → EReal) (W3 : Fin d → Fin d → EReal) (b3 : Fin d → EReal) : Fin n → Fin d → EReal :=
  layer23 adj (mm (h1 adj x W1 b1) W2) b2 (h1 adj x W1 b1) W3 b3

end Cert.Spec

end
-- ==== Proof.KI.Value0.lean ====
/-
  Region 0's three output arrays over the extended reals, entry by entry: the bf16 copy of the adjacency is the
  adjacency (a change of format is the identity), the hidden layer's block rows are relu(adj·(x·W1) + b1), and the
  second support is that times W2. Row 400·t + p of an output array is row p of what point t wrote back.
-/
import proofs.«179938_g5239860101595_cont_sun_m_358_21_alg».proof.Proof.KI.Base
import proofs.«179938_g5239860101595_cont_sun_m_358_21_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The arrays region 0 is entered with, by coordinates. -/
abbrev adjM (c : Dev nD) : Fin 10000 → Fin 10000 → EReal := Spec.mat (V c main_arg1 : Vec Ideal S10000x10000 .f32)
abbrev xM (c : Dev nD) : Fin 10000 → Fin 128 → EReal := Spec.mat (V c main_arg0 : Vec Ideal S10000x128 .f32)
abbrev w1M (c : Dev nD) : Fin 128 → Fin 128 → EReal := Spec.mat (V c main_arg2 : Vec Ideal S128x128 .f32)
abbrev b1R (c : Dev nD) : Fin 128 → EReal := Spec.row1 (V c main_v0 : Vec Ideal S1x128 .f32)
abbrev w2M (c : Dev nD) : Fin 128 → Fin 128 → EReal := Spec.mat (V c main_arg4 : Vec Ideal S128x128 .f32)

namespace Region0

/-! ## Where the blocks sit -/

/-- Where each window's block sits at a grid point: the adjacency and the three outputs at block row t, the whole
    arrays at the origin. -/
theorem block_places : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = t.val ∧ win0_6.index t (1 : Fin 2) = 0
  ∧ win0_7.index t (0 : Fin 2) = t.val ∧ win0_7.index t (1 : Fin 2) = 0 :=
  (by decide +kernel : ∀ t : Fin grid0.N, _)

/-! ## The input blocks, entry by entry -/

/-- Row p of the adjacency's block t is row 400·t + p of the adjacency. -/
theorem adjB_apply (c : Dev nD) (t : Fin cfg0.N) (p : Fin 400) (k : Fin 10000) (r : Fin 10000)
    (hr : r.val = 400 * t.val + p.val) :
    (adjB V c t) (ix2 p k) = adjM V c r k := by
  obtain ⟨e0, e1, -⟩ := block_places t
  show V c main_arg1 (((cfg0.win 0).blk t).view.emb (ix2 p k)) = V c main_arg1 (ix2 r k)
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The features' block is the whole feature matrix. -/
theorem xA_apply (c : Dev nD) (t : Fin cfg0.N) (k : Fin 10000) (l : Fin 128) :
    (xA V c t) (ix2 k l) = xM V c k l := by
  obtain ⟨-, -, e0, e1, -⟩ := block_places t
  show V c main_arg0 (((cfg0.win 1).blk t).view.emb (ix2 k l)) = V c main_arg0 (ix2 k l)
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * l.val = l.val; omega

/-- The first weights' block is the whole matrix. -/
theorem w1A_apply (c : Dev nD) (t : Fin cfg0.N) (l : Fin 128) (q : Fin 128) :
    (w1A V c t) (ix2 l q) = w1M V c l q := by
  obtain ⟨-, -, -, -, e0, e1, -⟩ := block_places t
  show V c main_arg2 (((cfg0.win 2).blk t).view.emb (ix2 l q)) = V c main_arg2 (ix2 l q)
  refine congrArg _ (funext fun a => Fin.ext ?_)
  match a with
  | ⟨0, _⟩ => show win0_2.index t (0 : Fin 2) * 128 + 1 * l.val = l.val; omega
  | ⟨1, _⟩ => show win0_2.index t (1 : Fin 2) * 128 + 1 * q.val = q.val; omega

/-- The bias block is the whole bias row. -/
theorem b1A_apply (c : Dev nD) (t : Fin cfg0.N) (q : Fin 128) :
    (b1A V c t) (ix2 (0 : Fin 1) q) = b1R V c q := by
  obtain ⟨-, -, -, -, -, -, e0, e1, -⟩ := block_places t
  show V c main_v0 (((cfg0.win 3).blk t).view.emb (ix2 (0 : Fin 1) q)) = V c main_v0 (ix2 (0 : Fin 1) q)
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- The second weights' block is the whole matrix. -/
theorem w2A_apply (c : Dev nD) (t : Fin cfg0.N) (l : Fin 128) (q : Fin 128) :
    (w2A V c t) (ix2 l q) = w2M V c l q := by
  obtain ⟨-, -, -, -, -, -, -, -, e0, e1, -⟩ := block_places t
  show V c main_arg4 (((cfg0.win 4).blk t).view.emb (ix2 l q)) = V c main_arg4 (ix2 l q)
  refine congrArg _ (funext fun a => Fin.ext ?_)
  match a with
  | ⟨0, _⟩ => show win0_4.index t (0 : Fin 2) * 128 + 1 * l.val = l.val; omega
  | ⟨1, _⟩ => show win0_4.index t (1 : Fin 2) * 128 + 1 * q.val = q.val; omega

/-! ## The three products, entry by entry: into a zero accumulator a product's entry is the sum over the shared coordinate -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The features times the first weights, at an entry. -/
theorem xw_apply (A : FVec Ideal S10000x128 .bf16) (B : FVec Ideal S128x128 .bf16) (p : Fin 10000) (q : Fin 128) :
    FloatOps.matmul dot_S10000x128_S128x128_S10000x128_1_0_0_1_n_n none A B (constant (F := Ideal) S10000x128 .f32 0x00000000#32) (ix2 p q)
      = ∑ k : Fin 128, A (ix2 p k) * B (ix2 k q) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

theorem lhs_as_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_as_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_as_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_as_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- An adjacency block times the support, at an entry. -/
theorem as_apply (A : FVec Ideal S400x10000 .bf16) (B : FVec Ideal S10000x128 .bf16) (p : Fin 400) (q : Fin 128) :
    FloatOps.matmul dot_S400x10000_S10000x128_S400x128_1_0_0_1_n_n none A B (constant (F := Ideal) S400x128 .f32 0x00000000#32) (ix2 p q)
      = ∑ k : Fin 10000, A (ix2 p k) * B (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_as_0 _ _).trans hk
    | ⟨1, _⟩ => exact rhs_as_1 _ _)
  rw [el, er]

theorem lhs_hw_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_hw_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_hw_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_hw_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A hidden block times the second weights, at an entry. -/
theorem hw_apply (A : FVec Ideal S400x128 .bf16) (B : FVec Ideal S128x128 .bf16) (p : Fin 400) (q : Fin 128) :
    FloatOps.matmul dot_S400x128_S128x128_S400x128_1_0_0_1_n_n none A B (constant (F := Ideal) S400x128 .f32 0x00000000#32) (ix2 p q)
      = ∑ k : Fin 128, A (ix2 p k) * B (ix2 k q) := by
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_hw_0 _ _
    | ⟨1, _⟩ => exact (lhs_hw_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_hw_0 _ _).trans hk
    | ⟨1, _⟩ => exact rhs_hw_1 _ _)
  rw [el, er]

/-! ## The four payloads, entry by entry -/

/-- The support the first point stores: (x·W1) at an entry (a change of format and a cast to the same shape change nothing). -/
theorem pay1_apply (x : Vec Ideal S10000x128 .f32) (w : Vec Ideal S128x128 .f32) (k : Fin 10000) (q : Fin 128) :
    (k0_pay1 (F := Ideal) x w) (ix2 k q) = ∑ l : Fin 128, x (ix2 k l) * w (ix2 l q) := by
  unfold k0_pay1
  rw [shapeCast_self]
  exact xw_apply _ _ k q

/-- The bf16 copy of a block is the block. -/
theorem pay2_apply (A : Vec Ideal S400x10000 .f32) (p : Fin 400) (k : Fin 10000) :
    (k0_pay2 (F := Ideal) A) (ix2 p k) = A (ix2 p k) := rfl

/-- The bias row spread over the 400 rows, at an entry. -/
theorem bias_apply (b : Vec Ideal S1x128 .f32) (p : Fin 400) (q : Fin 128) :
    broadcastTo S400x128 (shapeCast S1x128 b shapeCasts_S1x128_S1x128) broadcasts_S1x128_S400x128 (ix2 p q) = b (ix2 (0 : Fin 1) q) := by
  rw [shapeCast_self]
  refine broadcastTo_apply b _ (ix2 p q) (ix2 (0 : Fin 1) q) fun a => ?_
  match a with
  | ⟨0, _⟩ => rfl
  | ⟨1, _⟩ => rfl

/-- The hidden block: relu(A·S + b) at an entry. -/
theorem pay3_apply (A : Vec Ideal S400x10000 .f32) (S : Vec Ideal S10000x128 .bf16) (b : Vec Ideal S1x128 .f32) (p : Fin 400) (q : Fin 128) :
    (k0_pay3 (F := Ideal) A S b) (ix2 p q) = max ((∑ k : Fin 10000, A (ix2 p k) * S (ix2 k q)) + b (ix2 (0 : Fin 1) q)) 0 := by
  unfold k0_pay3
  show max (FloatOps.matmul dot_S400x10000_S10000x128_S400x128_1_0_0_1_n_n none (k0_pay2 (F := Ideal) A) S (constant (F := Ideal) S400x128 .f32 0x00000000#32) (ix2 p q)
      + broadcastTo S400x128 (shapeCast S1x128 b shapeCasts_S1x128_S1x128) broadcasts_S1x128_S400x128 (ix2 p q)) (Ideal.ofBits .f32 0x00000000#32) = _
  rw [as_apply, bias_apply, Ideal.ofBits_zero_f32]
  rfl

/-- The second support's block: (hidden block)·W2 at an entry. -/
theorem pay4_apply (A : Vec Ideal S400x10000 .f32) (S : Vec Ideal S10000x128 .bf16) (b : Vec Ideal S1x128 .f32) (W : Vec Ideal S128x128 .f32) (p : Fin 400) (q : Fin 128) :
    (k0_pay4 (F := Ideal) A S b W) (ix2 p q) = ∑ l : Fin 128, (k0_pay3 (F := Ideal) A S b) (ix2 p l) * W (ix2 l q) := by
  unfold k0_pay4
  exact hw_apply _ _ p q

/-! ## What each point leaves in the three output blocks, entry by entry -/

/-- The support in the scratch is x·W1. -/
theorem S1_apply (c : Dev nD) (k : Fin 10000) (q : Fin 128) :
    S1 V c (ix2 k q) = Spec.mm (xM V c) (w1M V c) k q := by
  unfold S1
  refine (pay1_apply _ _ k q).trans ?_
  exact Finset.sum_congr rfl fun l _ => by rw [xA_apply, w1A_apply]

/-- Row p of the copy's block t is row 400·t + p of the adjacency. -/
theorem out5_apply (c : Dev nD) (t : Fin cfg0.N) (p : Fin 400) (k : Fin 10000) (r : Fin 10000)
    (hr : r.val = 400 * t.val + p.val) :
    out0_5 V c t (ix2 p k) = adjM V c r k := by
  unfold out0_5
  exact (pay2_apply _ p k).trans (adjB_apply V c t p k r hr)

/-- Row p of the hidden block t is row 400·t + p of the hidden layer. -/
theorem out6_apply (c : Dev nD) (t : Fin cfg0.N) (p : Fin 400) (q : Fin 128) (r : Fin 10000)
    (hr : r.val = 400 * t.val + p.val) :
    out0_6 V c t (ix2 p q) = Spec.h1 (adjM V c) (xM V c) (w1M V c) (b1R V c) r q := by
  unfold out0_6
  refine (pay3_apply _ _ _ p q).trans ?_
  have hs : (∑ k : Fin 10000, adjB V c t (ix2 p k) * S1 V c (ix2 k q)) = Spec.mm (adjM V c) (Spec.mm (xM V c) (w1M V c)) r q :=
    Finset.sum_congr rfl fun k _ => by rw [adjB_apply V c t p k r hr, S1_apply]
  rw [hs, b1A_apply]
  rfl

/-- Row p of the second support's block t is row 400·t + p of (hidden layer)·W2. -/
theorem out7_apply (c : Dev nD) (t : Fin cfg0.N) (p : Fin 400) (q : Fin 128) (r : Fin 10000)
    (hr : r.val = 400 * t.val + p.val) :
    out0_7 V c t (ix2 p q) = Spec.mm (Spec.h1 (adjM V c) (xM V c) (w1M V c) (b1R V c)) (w2M V c) r q := by
  unfold out0_7
  refine (pay4_apply _ _ _ _ p q).trans ?_
  refine Finset.sum_congr rfl fun l _ => ?_
  have h6 := out6_apply V c t p l r hr
  unfold out0_6 at h6
  rw [h6, w2A_apply]

/-! ## The three output arrays as functions of the entry arrays, and the write-backs as their blocks -/

/-- The bf16 adjacency array, whole. -/
def arr5 (c : Dev nD) : Vec Ideal S10000x10000 .bf16 := fun i =>
  adjM V c ⟨(i 0).val, idx2_lt0 i⟩ ⟨(i 1).val, idx2_lt1 i⟩

/-- The hidden-layer array, whole. -/
def arr6 (c : Dev nD) : Vec Ideal S10000x128 .bf16 := fun i =>
  Spec.h1 (adjM V c) (xM V c) (w1M V c) (b1R V c) ⟨(i 0).val, idx2_lt0 i⟩ ⟨(i 1).val, idx2_lt1 i⟩

/-- The second support array, whole. -/
def arr7 (c : Dev nD) : Vec Ideal S10000x128 .bf16 := fun i =>
  Spec.mm (Spec.h1 (adjM V c) (xM V c) (w1M V c) (b1R V c)) (w2M V c) ⟨(i 0).val, idx2_lt0 i⟩ ⟨(i 1).val, idx2_lt1 i⟩

/-- What point t writes back to the bf16 adjacency is block t of the whole array. -/
theorem flushed5_eq (c : Dev nD) (t : Fin cfg0.N) :
    (dat0 V c).flushed 5 t = ((cfg0.win 5).blk t).view.read (Elt Ideal) (arr5 V c) := by
  show (cfg0.win 5).cut (grid0.coords t) ((dat0 V c).after 5 t) = _
  rw [after0_5]
  refine funext fun (j : S400x10000.Idx) => ?_
  obtain ⟨p, k, rfl⟩ : ∃ (p : Fin 400) (k : Fin 10000), j = ix2 p k := ⟨j 0, j 1, eq_ix2 j⟩
  obtain ⟨-, -, -, -, -, -, -, -, -, -, e0, e1, -⟩ := block_places t
  have ht : t.val < 25 := Nat.lt_of_lt_of_eq t.isLt N_0
  show out0_5 V c t (ix2 p k) = arr5 V c (((cfg0.win 5).blk t).view.emb (ix2 p k))
  refine (out5_apply V c t p k ⟨400 * t.val + p.val, by omega⟩ rfl).trans ?_
  unfold arr5
  congr 1 <;> apply Fin.ext
  · show 400 * t.val + p.val = win0_5.index t (0 : Fin 2) * 400 + 1 * p.val; omega
  · show k.val = win0_5.index t (1 : Fin 2) * 10000 + 1 * k.val; omega

/-- What point t writes back to the hidden-layer array is block t of the whole array. -/
theorem flushed6_eq (c : Dev nD) (t : Fin cfg0.N) :
    (dat0 V c).flushed 6 t = ((cfg0.win 6).blk t).view.read (Elt Ideal) (arr6 V c) := by
  show (cfg0.win 6).cut (grid0.coords t) ((dat0 V c).after 6 t) = _
  rw [after0_6]
  refine funext fun (j : S400x128.Idx) => ?_
  obtain ⟨p, q, rfl⟩ : ∃ (p : Fin 400) (q : Fin 128), j = ix2 p q := ⟨j 0, j 1, eq_ix2 j⟩
  obtain ⟨-, -, -, -, -, -, -, -, -, -, -, -, e0, e1, -⟩ := block_places t
  have ht : t.val < 25 := Nat.lt_of_lt_of_eq t.isLt N_0
  show out0_6 V c t (ix2 p q) = arr6 V c (((cfg0.win 6).blk t).view.emb (ix2 p q))
  refine (out6_apply V c t p q ⟨400 * t.val + p.val, by omega⟩ rfl).trans ?_
  unfold arr6
  congr 1 <;> apply Fin.ext
  · show 400 * t.val + p.val = win0_6.index t (0 : Fin 2) * 400 + 1 * p.val; omega
  · show q.val = win0_6.index t (1 : Fin 2) * 128 + 1 * q.val; omega

/-- What point t writes back to the second support array is block t of the whole array. -/
theorem flushed7_eq (c : Dev nD) (t : Fin cfg0.N) :
    (dat0 V c).flushed 7 t = ((cfg0.win 7).blk t).view.read (Elt Ideal) (arr7 V c) := by
  show (cfg0.win 7).cut (grid0.coords t) ((dat0 V c).after 7 t) = _
  rw [after0_7]
  refine funext fun (j : S400x128.Idx) => ?_
  obtain ⟨p, q, rfl⟩ : ∃ (p : Fin 400) (q : Fin 128), j = ix2 p q := ⟨j 0, j 1, eq_ix2 j⟩
  obtain ⟨-, -, -, -, -, -, -, -, -, -, -, -, -, -, e0, e1⟩ := block_places t
  have ht : t.val < 25 := Nat.lt_of_lt_of_eq t.isLt N_0
  show out0_7 V c t (ix2 p q) = arr7 V c (((cfg0.win 7).blk t).view.emb (ix2 p q))
  refine (out7_apply V c t p q ⟨400 * t.val + p.val, by omega⟩ rfl).trans ?_
  unfold arr7
  congr 1 <;> apply Fin.ext
  · show 400 * t.val + p.val = win0_7.index t (0 : Fin 2) * 400 + 1 * p.val; omega
  · show q.val = win0_7.index t (1 : Fin 2) * 128 + 1 * q.val; omega

/-! ## Every row is in the block of the point that is its number divided by 400 -/

/-- An entry of the bf16 adjacency is in point t's block iff each coordinate is in the block's range. -/
theorem mem_blk5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_v3_0).slice (win0_5.rect t)).set ↔ _
  rw [View.set_slice_whole, Rect.mem_set_unit]
  exact Iff.rfl

/-- The same for the hidden-layer array. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v3_1).slice (win0_6.rect t)).set ↔ _
  rw [View.set_slice_whole, Rect.mem_set_unit]
  exact Iff.rfl

/-- The same for the second support array. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v3_2).slice (win0_7.rect t)).set ↔ _
  rw [View.set_slice_whole, Rect.mem_set_unit]
  exact Iff.rfl

/-- The point whose block holds row r. -/
theorem point_of_row (r : Nat) (hr : r < 10000) : ∃ t : Fin cfg0.N, t.val = r / 400 :=
  ⟨⟨r / 400, by rw [show cfg0.N = 25 from N_0]; omega⟩, rfl⟩

/-- Every entry of the bf16 adjacency is written back by some point. -/
theorem cover5 (i : S10000x10000.Idx) :
    ∃ t : Fin cfg0.N, (cfg0.win 5).flush t = true ∧ i ∈ ((cfg0.win 5).blk t).view.set := by
  have hi0 : (i 0).val < 10000 := idx2_lt0 i
  have hi1 : (i 1).val < 10000 := idx2_lt1 i
  obtain ⟨t, ht⟩ := point_of_row (i 0).val hi0
  obtain ⟨-, -, -, -, -, -, -, -, -, -, e0, e1, -⟩ := block_places t
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 10000 ≤ (i 1).val ∧ (i 1).val < win0_5.index t (1 : Fin 2) * 10000 + 10000; omega

/-- Every entry of the hidden-layer array is written back by some point. -/
theorem cover6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  obtain ⟨t, ht⟩ := point_of_row (i 0).val hi0
  obtain ⟨-, -, -, -, -, -, -, -, -, -, -, -, e0, e1, -⟩ := block_places t
  refine ⟨t, flush0_6 t, ?_⟩
  rw [mem_blk6]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- Every entry of the second support array is written back by some point. -/
theorem cover7 (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  obtain ⟨t, ht⟩ := point_of_row (i 0).val hi0
  obtain ⟨-, -, -, -, -, -, -, -, -, -, -, -, -, -, e0, e1⟩ := block_places t
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-! ## The arrays after region 0 -/

theorem arr5_final (c : Dev nD) : (dat0 V c).arrAt 5 cfg0.N = arr5 V c :=
  (dat0 V c).arrAt_eq_of_cover 5 (arr5 V c) (fun t _ => flushed5_eq V c t) cover5

theorem arr6_final (c : Dev nD) : (dat0 V c).arrAt 6 cfg0.N = arr6 V c :=
  (dat0 V c).arrAt_eq_of_cover 6 (arr6 V c) (fun t _ => flushed6_eq V c t) cover6

theorem arr7_final (c : Dev nD) : (dat0 V c).arrAt 7 cfg0.N = arr7 V c :=
  (dat0 V c).arrAt_eq_of_cover 7 (arr7 V c) (fun t _ => flushed7_eq V c t) cover7

end Region0

/-- The bf16 adjacency array after region 0 is the adjacency. -/
theorem a16_apply (c : Dev nD) (a : Fin 10000) (b : Fin 10000) :
    ((dat0 (F := Ideal) V c).arrAt 5 cfg0.N : Vec Ideal S10000x10000 .bf16) (ix2 a b) = adjM V c a b :=
  congrFun (Region0.arr5_final V c) (ix2 a b)

/-- The hidden-layer array after region 0. -/
theorem h1_apply (c : Dev nD) (a : Fin 10000) (b : Fin 128) :
    ((dat0 (F := Ideal) V c).arrAt 6 cfg0.N : Vec Ideal S10000x128 .bf16) (ix2 a b)
      = Spec.h1 (adjM V c) (xM V c) (w1M V c) (b1R V c) a b :=
  congrFun (Region0.arr6_final V c) (ix2 a b)

/-- The second support array after region 0. -/
theorem s2_apply (c : Dev nD) (a : Fin 10000) (b : Fin 128) :
    ((dat0 (F := Ideal) V c).arrAt 7 cfg0.N : Vec Ideal S10000x128 .bf16) (ix2 a b)
      = Spec.mm (Spec.h1 (adjM V c) (xM V c) (w1M V c) (b1R V c)) (w2M V c) a b :=
  congrFun (Region0.arr7_final V c) (ix2 a b)

end Cert.KernelIdeal.Hand

end
-- ==== Proof.KI.Value1.lean ====
/-
  Region 1's output array over the extended reals, entry by entry: row 1000·k + p of the output is row p of what
  point 19 − k wrote back, adj_k · s3 + b3, where s3's row 1000·t + p is row p of the slice point t stored,
  (relu(adj_t · s2 + b2) + h1_t) · W3.
-/
import proofs.«179938_g5239860101595_cont_sun_m_358_21_alg».proof.Proof.KI.Base
import proofs.«179938_g5239860101595_cont_sun_m_358_21_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

/-- The arrays region 1 is entered with, by coordinates. -/
abbrev a16M (c : Dev nD) : Fin 10000 → Fin 10000 → EReal := Spec.mat (V c main_v3_0 : Vec Ideal S10000x10000 .bf16)
abbrev s2M (c : Dev nD) : Fin 10000 → Fin 128 → EReal := Spec.mat (V c main_v3_2 : Vec Ideal S10000x128 .bf16)
abbrev b2R (c : Dev nD) : Fin 128 → EReal := Spec.row1 (V c main_v1 : Vec Ideal S1x128 .f32)
abbrev h1M (c : Dev nD) : Fin 10000 → Fin 128 → EReal := Spec.mat (V c main_v3_1 : Vec Ideal S10000x128 .bf16)
abbrev w3M (c : Dev nD) : Fin 128 → Fin 128 → EReal := Spec.mat (V c main_arg6 : Vec Ideal S128x128 .f32)
abbrev b3R (c : Dev nD) : Fin 128 → EReal := Spec.row1 (V c main_v2 : Vec Ideal S1x128 .f32)

namespace Region1

/-! ## The two products at an index -/

theorem lhs_adj_0 (i : S1000x128.Idx) (q : dot_S1000x10000_S10000x128_S1000x128_1_0_0_1_n_n.contr.Idx) :
    (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem lhs_adj_1 (i : S1000x128.Idx) (q : dot_S1000x10000_S10000x128_S1000x128_1_0_0_1_n_n.contr.Idx) :
    (dot_S1000x10000_S10000x128_S1000x128_1_0_0_1_n_n.lhsIdx i q 1).val = (q ⟨0, by decide⟩).val :=
  dot_S1000x10000_S10000x128_S1000x128_1_0_0_1_n_n.lhsIdx_val_of_single rfl i q
theorem rhs_adj_0 (i : S1000x128.Idx) (q : dot_S1000x10000_S10000x128_S1000x128_1_0_0_1_n_n.contr.Idx) :
    (dot_S1000x10000_S10000x128_S1000x128_1_0_0_1_n_n.rhsIdx i q 0).val = (q ⟨0, by decide⟩).val :=
  dot_S1000x10000_S10000x128_S1000x128_1_0_0_1_n_n.rhsIdx_val_of_single rfl i q
theorem rhs_adj_1 (i : S1000x128.Idx) (q : dot_S1000x10000_S10000x128_S1000x128_1_0_0_1_n_n.contr.Idx) :
    (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

/-- A 1000 × 10000 block times a 10000 × 128 array into a zero accumulator: entry (p, q) is the sum over the shared
    coordinate. -/
theorem mm_adj_apply (A : FVec Ideal S1000x10000 .bf16) (B : FVec Ideal S10000x128 .bf16) (p : Fin 1000) (q : Fin 128) :
    matmul dot_S1000x10000_S10000x128_S1000x128_1_0_0_1_n_n none A B (constant (F := Ideal) S1000x128 .f32 0x00000000#32) (ix2 p q)
      = ∑ k : Fin 10000, A (ix2 p k) * B (ix2 k q) := by
  show FloatOps.matmul dot_S1000x10000_S10000x128_S1000x128_1_0_0_1_n_n none A B (constant S1000x128 .f32 0x00000000#32) (ix2 p q) = _
  rw [Ideal.matmul_constant_zero_apply, ← Equiv.sum_comp (ValueIdx.contrEquiv1 dot_S1000x10000_S10000x128_S1000x128_1_0_0_1_n_n 10000 rfl rfl).symm]
  refine Finset.sum_congr rfl fun k _ => ?_
  have hk := ValueIdx.contrEquiv1_symm_val dot_S1000x10000_S10000x128_S1000x128_1_0_0_1_n_n 10000 rfl rfl k
  have el : dot_S1000x10000_S10000x128_S1000x128_1_0_0_1_n_n.lhsIdx (ix2 p q) ((ValueIdx.contrEquiv1 dot_S1000x10000_S10000x128_S1000x128_1_0_0_1_n_n 10000 rfl rfl).symm k) = ix2 p k := funext fun a => Fin.ext (by
    match a with
    | ⟨0, _⟩ => exact lhs_adj_0 _ _
    | ⟨1, _⟩ => exact (lhs_adj_1 _ _).trans hk)
  have er : dot_S1000x10000_S10000x128_S1000x128_1_0_0_1_n_n.rhsIdx (ix2 p q) ((ValueIdx.contrEquiv1 dot_S1000x10000_S10000x128_S1000x128_1_0_0_1_n_n 10000 rfl rfl).symm k) = ix2 k q := funext fun a => Fin.ext (by
    match a with
    | ⟨0, _⟩ => exact (rhs_adj_0 _ _).trans hk
    | ⟨1, _⟩ => exact rhs_adj_1 _ _)
  rw [el, er]

theorem lhs_w3_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_w3_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_w3_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_w3_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A 1000 × 128 block times a 128 × 128 matrix into a zero accumulator, at an entry. -/
theorem mm_w3_apply (A : FVec Ideal S1000x128 .bf16) (B : FVec Ideal S128x128 .bf16) (p : Fin 1000) (q : Fin 128) :
    matmul dot_S1000x128_S128x128_S1000x128_1_0_0_1_n_n none A B (constant (F := Ideal) S1000x128 .f32 0x00000000#32) (ix2 p q)
      = ∑ l : Fin 128, A (ix2 p l) * B (ix2 l q) := by
  show FloatOps.matmul dot_S1000x128_S128x128_S1000x128_1_0_0_1_n_n none A B (constant S1000x128 .f32 0x00000000#32) (ix2 p q) = _
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_w3_0 _ _
    | ⟨1, _⟩ => exact (lhs_w3_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_w3_0 _ _).trans hk
    | ⟨1, _⟩ => exact rhs_w3_1 _ _)
  rw [el, er]

/-- The row of a 1 × 128 array spread over 1000 rows, at an entry. -/
theorem bcast_row_apply (x : Vec Ideal S1x128 .f32) (p : Fin 1000) (q : Fin 128) :
    broadcastTo S1000x128 x broadcasts_S1x128_S1000x128 (ix2 p q) = x (ix2 (0 : Fin 1) q) := by
  refine broadcastTo_apply x _ (ix2 p q) (ix2 (0 : Fin 1) q) fun a => ?_
  match a with
  | ⟨0, _⟩ => rfl
  | ⟨1, _⟩ => rfl

/-! ## The index maps, decided over the grid -/

/-- Region 1's printed index maps over its 20 points: the adjacency block is t, then 19 − t; the h1 block is min t 9;
    the output block is 19 − t at the last ten points, which are exactly the points that write back; every other
    window sits at block (0, 0). -/
theorem index_maps1 : ∀ t : Fin cfg1.N,
    (t.val < 10 → win1_0.index t (0 : Fin 2) = t.val) ∧ (10 ≤ t.val → win1_0.index t (0 : Fin 2) = 19 - t.val)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ (t.val < 10 → win1_3.index t (0 : Fin 2) = t.val) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ (10 ≤ t.val → win1_6.index t (0 : Fin 2) = 19 - t.val) ∧ win1_6.index t (1 : Fin 2) = 0
    ∧ ((cfg1.win 6).flush t = true ↔ 10 ≤ t.val) :=
  (by decide +kernel : ∀ t : Fin grid1.N, _)

/-! ## The blocks the body reads, by coordinates -/

/-- Entry (p, k) of the adjacency block at a point whose block index is `b` is entry (1000·b + p, k) of the array. -/
theorem a16B_apply (c : Dev nD) (t : Fin cfg1.N) (b : Nat) (hb : win1_0.index t (0 : Fin 2) = b) (p : Fin 1000) (k : Fin 10000)
    (r : Fin 10000) (hr : r.val = 1000 * b + p.val) :
    a16B V c t (ix2 p k) = a16M V c r k := by
  obtain ⟨-, -, e1, -⟩ := index_maps1 t
  show iblk1 V c 0 t _ = _
  unfold iblk1
  rw [View.read_apply]
  show V c main_v3_0 _ = V c main_v3_0 _
  congr 1
  funext a
  apply Fin.ext
  match a with
  | ⟨0, _⟩ => show win1_0.index t (0 : Fin 2) * 1000 + 1 * p.val = r.val; omega
  | ⟨1, _⟩ => show win1_0.index t (1 : Fin 2) * 10000 + 1 * k.val = k.val; omega

/-- The support s2 is read whole. -/
theorem s2A_apply (c : Dev nD) (t : Fin cfg1.N) (j : Fin 10000) (l : Fin 128) :
    s2A V c t (ix2 j l) = s2M V c j l := by
  obtain ⟨-, -, -, e0, e1, -⟩ := index_maps1 t
  show iblk1 V c 1 t _ = _
  unfold iblk1
  rw [View.read_apply]
  show V c main_v3_2 _ = V c main_v3_2 _
  congr 1
  funext a
  apply Fin.ext
  match a with
  | ⟨0, _⟩ => show win1_1.index t (0 : Fin 2) * 10000 + 1 * j.val = j.val; omega
  | ⟨1, _⟩ => show win1_1.index t (1 : Fin 2) * 128 + 1 * l.val = l.val; omega

/-- The bias row b2 is read whole. -/
theorem b2A_apply (c : Dev nD) (t : Fin cfg1.N) (l : Fin 128) :
    b2A V c t (ix2 (0 : Fin 1) l) = b2R V c l := by
  obtain ⟨-, -, -, -, -, e0, e1, -⟩ := index_maps1 t
  show iblk1 V c 2 t _ = _
  unfold iblk1
  rw [View.read_apply]
  show V c main_v1 _ = V c main_v1 _
  congr 1
  funext a
  apply Fin.ext
  match a with
  | ⟨0, _⟩ => show win1_2.index t (0 : Fin 2) * 1 + 1 * 0 = 0; omega
  | ⟨1, _⟩ => show win1_2.index t (1 : Fin 2) * 128 + 1 * l.val = l.val; omega

/-- Entry (p, l) of the h1 block at one of the first ten points is entry (1000·t + p, l) of h1. -/
theorem h1B_apply (c : Dev nD) (t : Fin cfg1.N) (ht : t.val < 10) (p : Fin 1000) (l : Fin 128)
    (r : Fin 10000) (hr : r.val = 1000 * t.val + p.val) :
    h1B V c t (ix2 p l) = h1M V c r l := by
  obtain ⟨-, -, -, -, -, -, -, e0, e1, -⟩ := index_maps1 t
  have e0' := e0 ht
  show iblk1 V c 3 t _ = _
  unfold iblk1
  rw [View.read_apply]
  show V c main_v3_1 _ = V c main_v3_1 _
  congr 1
  funext a
  apply Fin.ext
  match a with
  | ⟨0, _⟩ => show win1_3.index t (0 : Fin 2) * 1000 + 1 * p.val = r.val; omega
  | ⟨1, _⟩ => show win1_3.index t (1 : Fin 2) * 128 + 1 * l.val = l.val; omega

/-- The weight matrix W3 is read whole. -/
theorem w3A_apply (c : Dev nD) (t : Fin cfg1.N) (l : Fin 128) (q : Fin 128) :
    w3A V c t (ix2 l q) = w3M V c l q := by
  obtain ⟨-, -, -, -, -, -, -, -, -, e0, e1, -⟩ := index_maps1 t
  show iblk1 V c 4 t _ = _
  unfold iblk1
  rw [View.read_apply]
  show V c main_arg6 _ = V c main_arg6 _
  congr 1
  funext a
  apply Fin.ext
  match a with
  | ⟨0, _⟩ => show win1_4.index t (0 : Fin 2) * 128 + 1 * l.val = l.val; omega
  | ⟨1, _⟩ => show win1_4.index t (1 : Fin 2) * 128 + 1 * q.val = q.val; omega

/-- The bias row b3 is read whole. -/
theorem b3A_apply (c : Dev nD) (t : Fin cfg1.N) (q : Fin 128) :
    b3A V c t (ix2 (0 : Fin 1) q) = b3R V c q := by
  obtain ⟨-, -, -, -, -, -, -, -, -, -, -, e0, e1, -⟩ := index_maps1 t
  show iblk1 V c 5 t _ = _
  unfold iblk1
  rw [View.read_apply]
  show V c main_v2 _ = V c main_v2 _
  congr 1
  funext a
  apply Fin.ext
  match a with
  | ⟨0, _⟩ => show win1_5.index t (0 : Fin 2) * 1 + 1 * 0 = 0; omega
  | ⟨1, _⟩ => show win1_5.index t (1 : Fin 2) * 128 + 1 * q.val = q.val; omega

/-! ## The body's two payloads at an entry -/

/-- The slice a point of the first ten stores: (relu(A · S + b) + H) · W at entry (p, q), over the point's blocks. -/
theorem k1_pay1_apply (A : Vec Ideal S1000x10000 .bf16) (S : Vec Ideal S10000x128 .bf16) (B : Vec Ideal S1x128 .f32)
    (H : Vec Ideal S1000x128 .bf16) (W : Vec Ideal S128x128 .f32) (p : Fin 1000) (q : Fin 128) :
    k1_pay1 A S B H W (ix2 p q)
      = ∑ l : Fin 128, (max ((∑ j : Fin 10000, A (ix2 p j) * S (ix2 j l)) + B (ix2 (0 : Fin 1) l)) 0 + H (ix2 p l)) * W (ix2 l q) := by
  unfold k1_pay1
  simp only [shapeCast_self]
  rw [truncf_apply, mm_w3_apply]
  refine Finset.sum_congr rfl fun l _ => ?_
  rw [truncf_apply, truncf_apply, addf_apply, extf_apply, maximumf_apply, addf_apply, mm_adj_apply, bcast_row_apply, broadcast_apply]
  show (max _ (Ideal.ofBits .f32 0x00000000#32) + _) * _ = _
  rw [Ideal.ofBits_zero_f32]

/-- The block a point of the last ten stores: A · S + b at entry (p, q). -/
theorem k1_pay2_apply (A : Vec Ideal S1000x10000 .bf16) (S : Vec Ideal S10000x128 .bf16) (B : Vec Ideal S1x128 .f32)
    (p : Fin 1000) (q : Fin 128) :
    k1_pay2 A S B (ix2 p q) = (∑ k : Fin 10000, A (ix2 p k) * S (ix2 k q)) + B (ix2 (0 : Fin 1) q) := by
  unfold k1_pay2
  simp only [shapeCast_self]
  rw [addf_apply, mm_adj_apply, bcast_row_apply]

/-! ## The slices and the output blocks, from the arrays -/

/-- The scratch's contents by coordinates: s3 = (relu(a · s2 + b2) + h1) · W3. -/
def s3E (c : Dev nD) : Fin 10000 → Fin 128 → EReal :=
  Spec.mm (fun k l => max (Spec.mm (a16M V c) (s2M V c) k l + b2R V c l) 0 + h1M V c k l) (w3M V c)

/-- Row p of the slice point t < 10 stores is row 1000·t + p of s3. -/
theorem P1_apply (c : Dev nD) (t : Fin cfg1.N) (ht : t.val < 10) (p : Fin 1000) (q : Fin 128)
    (r : Fin 10000) (hr : r.val = 1000 * t.val + p.val) :
    P1 V c t (ix2 p q) = s3E V c r q := by
  obtain ⟨e0, -⟩ := index_maps1 t
  unfold P1
  refine (k1_pay1_apply _ _ _ _ _ p q).trans ?_
  have hs : ∀ l : Fin 128, (∑ j : Fin 10000, a16B V c t (ix2 p j) * s2A V c t (ix2 j l))
      = ∑ j : Fin 10000, a16M V c r j * s2M V c j l := fun l =>
    Finset.sum_congr rfl fun j _ => by rw [a16B_apply V c t t.val (e0 ht) p j r hr, s2A_apply]
  show _ = ∑ l : Fin 128, (max ((∑ j : Fin 10000, a16M V c r j * s2M V c j l) + b2R V c l) 0 + h1M V c r l) * w3M V c l q
  refine Finset.sum_congr rfl fun l _ => ?_
  rw [hs l, b2A_apply, h1B_apply V c t ht p l r hr, w3A_apply]

/-- The scratch after the first ten points is s3. -/
theorem S3_apply (c : Dev nD) (k : Fin 10000) (q : Fin 128) : S3 V c (ix2 k q) = s3E V c k q := by
  have hk : k.val < 10000 := k.isLt
  unfold S3
  exact P1_apply V c _ (by show k.val / 1000 < 10; omega) _ _ k (by show k.val = 1000 * (k.val / 1000) + k.val % 1000; omega)

/-- Row p of the block point t ≥ 10 leaves in the output window is row 1000·(19 − t) + p of the network's output. -/
theorem out1_6_apply (c : Dev nD) (t : Fin cfg1.N) (ht : 10 ≤ t.val) (p : Fin 1000) (q : Fin 128)
    (r : Fin 10000) (hr : r.val = 1000 * (19 - t.val) + p.val) :
    out1_6 V c t (ix2 p q) = Spec.layer23 (a16M V c) (s2M V c) (b2R V c) (h1M V c) (w3M V c) (b3R V c) r q := by
  obtain ⟨-, e0, -⟩ := index_maps1 t
  unfold out1_6
  refine (k1_pay2_apply _ _ _ p q).trans ?_
  rw [b3A_apply]
  show _ = (∑ k : Fin 10000, a16M V c r k * s3E V c k q) + b3R V c q
  congr 1
  exact Finset.sum_congr rfl fun k _ => by rw [a16B_apply V c t (19 - t.val) (e0 ht) p k r hr, S3_apply]

/-! ## From blocks to the array -/

/-- The output array by coordinates. -/
def outM (c : Dev nD) : Vec Ideal S10000x128 .f32 := fun i =>
  Spec.layer23 (a16M V c) (s2M V c) (b2R V c) (h1M V c) (w3M V c) (b3R V c) ⟨(i 0).val, idx2_lt0 i⟩ ⟨(i 1).val, idx2_lt1 i⟩

/-- What a point that writes back writes is its block of the output array. -/
theorem written_block_eq (c : Dev nD) (t : Fin cfg1.N) (hf : (cfg1.win 6).flush t = true) :
    (dat1 V c).flushed 6 t = ((cfg1.win 6).blk t).view.read (Elt Ideal) (outM V c) := by
  obtain ⟨-, -, -, -, -, -, -, -, -, -, -, -, -, e0, e1, ef⟩ := index_maps1 t
  have ht : 10 ≤ t.val := ef.mp hf
  have hN : cfg1.N = 20 := N_1
  have htN := t.isLt
  have e0' := e0 ht
  show (cfg1.win 6).cut (grid1.coords t) ((dat1 V c).after 6 t) = _
  rw [after1_6]
  funext j
  obtain ⟨p, q, rfl⟩ : ∃ (p : Fin 1000) (q : Fin 128), j = ix2 p q := ⟨j 0, j 1, eq_ix2 j⟩
  rw [View.read_apply]
  show out1_6 V c t (ix2 p q) = outM V c (((cfg1.win 6).blk t).view.emb (ix2 p q))
  refine (out1_6_apply V c t ht p q ⟨1000 * (19 - t.val) + p.val, by omega⟩ rfl).trans ?_
  unfold outM
  congr 1 <;> apply Fin.ext
  · show 1000 * (19 - t.val) + p.val = win1_6.index t (0 : Fin 2) * 1000 + 1 * p.val; omega
  · show q.val = win1_6.index t (1 : Fin 2) * 128 + 1 * q.val; omega

/-- An index of the array is in point t's block iff each coordinate is in the block's range on its axis. -/
theorem mem_out_block (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v4).slice (win1_6.rect t)).set ↔ _
  rw [View.set_slice_whole, Rect.mem_set_unit]
  exact Iff.rfl

/-- Every row is written back by one of the last ten points: row r by point 19 − r / 1000. -/
theorem rows_covered (i : S10000x128.Idx) : ∃ t : Fin cfg1.N, (cfg1.win 6).flush t = true ∧ i ∈ ((cfg1.win 6).blk t).view.set := by
  have hi0 : (i 0).val < 10000 := idx2_lt0 i
  have hi1 : (i 1).val < 128 := idx2_lt1 i
  have hN : cfg1.N = 20 := N_1
  let t : Fin cfg1.N := ⟨19 - (i 0).val / 1000, by omega⟩
  obtain ⟨-, -, -, -, -, -, -, -, -, -, -, -, -, e0, e1, ef⟩ := index_maps1 t
  have ht : 10 ≤ t.val := by show 10 ≤ 19 - (i 0).val / 1000; omega
  have e0' : win1_6.index t (0 : Fin 2) = 19 - (19 - (i 0).val / 1000) := e0 ht
  refine ⟨t, ef.mpr ht, ?_⟩
  rw [mem_out_block]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

end Region1

/-- The output array after region 1. -/
theorem out_apply (c : Dev nD) (a : Fin 10000) (b : Fin 128) :
    ((dat1 (F := Ideal) V c).arrAt 6 cfg1.N : Vec Ideal S10000x128 .f32) (ix2 a b)
      = Spec.layer23 (a16M V c) (s2M V c) (b2R V c) (h1M V c) (w3M V c) (b3R V c) a b := by
  rw [(dat1 V c).arrAt_eq_of_cover 6 (Region1.outM V c) (fun t hf => Region1.written_block_eq V c t hf) Region1.rows_covered]
  rfl

end Cert.KernelIdeal.Hand

end
-- ==== Proof.KI.Bridge.lean ====
/-
  The kernel's result over the extended reals is the network: region 1's output array is layers two and three of
  what region 0 left (the adjacency itself, the first hidden layer, its product with W2), and the three bias rows
  the host reshaped are the bias vectors.
-/
import proofs.«179938_g5239860101595_cont_sun_m_358_21_alg».proof.Proof.KI.Run
import proofs.«179938_g5239860101595_cont_sun_m_358_21_alg».proof.Proof.KI.Value0
import proofs.«179938_g5239860101595_cont_sun_m_358_21_alg».proof.Proof.KI.Value1
import proofs.«179938_g5239860101595_cont_sun_m_358_21_alg».proof.Proof.Gen.KernelIdeal.Regions
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ)

/-! ## The host stretch: a reshaped bias vector read as a row -/

theorem V1_keep (c : Dev nD) (r : Ref sig .tc) (h : r ∉ Gen.hostOps0_W) : V1 m c r = m ((c : Thread nD τ).loc r) :=
  Gen.V1_of m c r h

theorem V1_v0 (c : Dev nD) : (V1 m c main_v0 : Vec Ideal S1x128 .f32)
    = shapeCast S1x128 (m ((c : Thread nD τ).loc main_arg3) : Vec Ideal S128 .f32) shapeCasts_S128_S1x128 := by
  show StableHlo.after hostOps0 (fun b => m (c, b)) (Proc.devRef .tc main_v0) = _
  after_results; rfl
theorem V1_v1 (c : Dev nD) : (V1 m c main_v1 : Vec Ideal S1x128 .f32)
    = shapeCast S1x128 (m ((c : Thread nD τ).loc main_arg5) : Vec Ideal S128 .f32) shapeCasts_S128_S1x128 := by
  show StableHlo.after hostOps0 (fun b => m (c, b)) (Proc.devRef .tc main_v1) = _
  after_results; rfl
theorem V1_v2 (c : Dev nD) : (V1 m c main_v2 : Vec Ideal S1x128 .f32)
    = shapeCast S1x128 (m ((c : Thread nD τ).loc main_arg7) : Vec Ideal S128 .f32) shapeCasts_S128_S1x128 := by
  show StableHlo.after hostOps0 (fun b => m (c, b)) (Proc.devRef .tc main_v2) = _
  after_results; rfl

/-- The one row of a vector reshaped to 1 × 128 is the vector. -/
theorem row1_reshape (x : Vec Ideal S128 .f32) (b : Fin 128) :
    Spec.row1 (shapeCast S1x128 x shapeCasts_S128_S1x128) b = Spec.vec x b := by
  unfold Spec.row1 Spec.vec
  exact shapeCast_apply x shapeCasts_S128_S1x128 (ix2 (0 : Fin 1) b) (ix1 b)
    (by rw [Shape.rowMajor_val_one, Shape.rowMajor_val_two]; show b.val = (0 : Fin 1).val * 128 + b.val; simp)

/-! ## The argument arrays by coordinates -/

abbrev ADJ (c : Dev nD) : Fin 10000 → Fin 10000 → EReal := Spec.mat (m ((c : Thread nD τ).loc main_arg1) : Vec Ideal S10000x10000 .f32)
abbrev XX (c : Dev nD) : Fin 10000 → Fin 128 → EReal := Spec.mat (m ((c : Thread nD τ).loc main_arg0) : Vec Ideal S10000x128 .f32)
abbrev WW1 (c : Dev nD) : Fin 128 → Fin 128 → EReal := Spec.mat (m ((c : Thread nD τ).loc main_arg2) : Vec Ideal S128x128 .f32)
abbrev BB1 (c : Dev nD) : Fin 128 → EReal := Spec.vec (m ((c : Thread nD τ).loc main_arg3) : Vec Ideal S128 .f32)
abbrev WW2 (c : Dev nD) : Fin 128 → Fin 128 → EReal := Spec.mat (m ((c : Thread nD τ).loc main_arg4) : Vec Ideal S128x128 .f32)
abbrev BB2 (c : Dev nD) : Fin 128 → EReal := Spec.vec (m ((c : Thread nD τ).loc main_arg5) : Vec Ideal S128 .f32)
abbrev WW3 (c : Dev nD) : Fin 128 → Fin 128 → EReal := Spec.mat (m ((c : Thread nD τ).loc main_arg6) : Vec Ideal S128x128 .f32)
abbrev BB3 (c : Dev nD) : Fin 128 → EReal := Spec.vec (m ((c : Thread nD τ).loc main_arg7) : Vec Ideal S128 .f32)

/-! ## Region 0 is entered with the arguments and the reshaped first bias -/

theorem adjM_V1 (c : Dev nD) : adjM (V1 m) c = ADJ m c := by
  show Spec.mat (V1 m c main_arg1 : Vec Ideal S10000x10000 .f32) = _
  rw [V1_keep m c main_arg1 (by decide)]
theorem xM_V1 (c : Dev nD) : xM (V1 m) c = XX m c := by
  show Spec.mat (V1 m c main_arg0 : Vec Ideal S10000x128 .f32) = _
  rw [V1_keep m c main_arg0 (by decide)]
theorem w1M_V1 (c : Dev nD) : w1M (V1 m) c = WW1 m c := by
  show Spec.mat (V1 m c main_arg2 : Vec Ideal S128x128 .f32) = _
  rw [V1_keep m c main_arg2 (by decide)]
theorem w2M_V1 (c : Dev nD) : w2M (V1 m) c = WW2 m c := by
  show Spec.mat (V1 m c main_arg4 : Vec Ideal S128x128 .f32) = _
  rw [V1_keep m c main_arg4 (by decide)]
theorem b1R_V1 (c : Dev nD) : b1R (V1 m) c = BB1 m c := by
  funext b
  show Spec.row1 (V1 m c main_v0 : Vec Ideal S1x128 .f32) b = _
  rw [V1_v0]; exact row1_reshape _ b

/-! ## Region 1 is entered with region 0's outputs, the other two reshaped biases and W3 -/

theorem a16M_V2 (c : Dev nD) : a16M (V2 m) c = ADJ m c := by
  funext a b
  show (W2 m c (Proc.devRef .tc main_v3_0) : Vec Ideal S10000x10000 .bf16) (ix2 a b) = _
  rw [show W2 m c (Proc.devRef .tc main_v3_0) = (dat0 (V1 m) c).arrAt 5 cfg0.N from W2_arr m c 5]
  rw [a16_apply (V1 m) c a b, adjM_V1]
theorem h1M_V2 (c : Dev nD) : h1M (V2 m) c = Spec.h1 (ADJ m c) (XX m c) (WW1 m c) (BB1 m c) := by
  funext a b
  show (W2 m c (Proc.devRef .tc main_v3_1) : Vec Ideal S10000x128 .bf16) (ix2 a b) = _
  rw [show W2 m c (Proc.devRef .tc main_v3_1) = (dat0 (V1 m) c).arrAt 6 cfg0.N from W2_arr m c 6]
  rw [h1_apply (V1 m) c a b, adjM_V1, xM_V1, w1M_V1, b1R_V1]
theorem s2M_V2 (c : Dev nD) : s2M (V2 m) c = Spec.mm (Spec.h1 (ADJ m c) (XX m c) (WW1 m c) (BB1 m c)) (WW2 m c) := by
  funext a b
  show (W2 m c (Proc.devRef .tc main_v3_2) : Vec Ideal S10000x128 .bf16) (ix2 a b) = _
  rw [show W2 m c (Proc.devRef .tc main_v3_2) = (dat0 (V1 m) c).arrAt 7 cfg0.N from W2_arr m c 7]
  rw [s2_apply (V1 m) c a b, adjM_V1, xM_V1, w1M_V1, b1R_V1, w2M_V1]
theorem V2_keep (c : Dev nD) (r : Ref sig .tc) (h : ∀ w, Pipeline.arrRef spec0 w ≠ r) : V2 m c r = V1 m c r :=
  W2_of_ne m c r h
theorem b2R_V2 (c : Dev nD) : b2R (V2 m) c = BB2 m c := by
  funext b
  show Spec.row1 (V2 m c main_v1 : Vec Ideal S1x128 .f32) b = _
  rw [V2_keep m c main_v1 (by decide), V1_v1]; exact row1_reshape _ b
theorem b3R_V2 (c : Dev nD) : b3R (V2 m) c = BB3 m c := by
  funext b
  show Spec.row1 (V2 m c main_v2 : Vec Ideal S1x128 .f32) b = _
  rw [V2_keep m c main_v2 (by decide), V1_v2]; exact row1_reshape _ b
theorem w3M_V2 (c : Dev nD) : w3M (V2 m) c = WW3 m c := by
  show Spec.mat (V2 m c main_arg6 : Vec Ideal S128x128 .f32) = _
  rw [V2_keep m c main_arg6 (by decide), V1_keep m c main_arg6 (by decide)]

/-- The kernel's result array, entry by entry, is the network of the argument arrays. -/
theorem kernel_out (c : Dev nD) (a : Fin 10000) (b : Fin 128) :
    (W3 m c (Proc.devRef .tc main_v4) : Vec Ideal S10000x128 .f32) (ix2 a b)
      = Spec.gcn (ADJ m c) (XX m c) (WW1 m c) (BB1 m c) (WW2 m c) (BB2 m c) (WW3 m c) (BB3 m c) a b := by
  rw [show W3 m c (Proc.devRef .tc main_v4) = (dat1 (V2 m) c).arrAt 6 cfg1.N from W3_arr m c 6]
  rw [out_apply (V2 m) c a b, a16M_V2, s2M_V2, b2R_V2, h1M_V2, w3M_V2, b3R_V2]
  rfl

/-- No item writes an argument array: the last valuation holds each as launched. -/
theorem W3_arg (c : Dev nD) (r : Ref sig .tc) (h1 : ∀ w, Pipeline.arrRef spec1 w ≠ r) (h0 : ∀ w, Pipeline.arrRef spec0 w ≠ r)
    (hh : r ∉ Gen.hostOps0_W) : W3 m c (Proc.devRef .tc r) = m ((c : Thread nD τ).loc r) :=
  (W3_of_ne m c r h1).trans ((W2_of_ne m c r h0).trans (V1_keep m c r hh))

end Cert.KernelIdeal.Hand

end
-- ==== Proof.RefValue.lean ====
/-
  The reference program's result over the extended reals, entry by entry: three graph-convolution layers
  h ↦ adj · (h · W) + b, a rectifier (the maximum with zero) after the first two, and the first hidden layer added back
  after the second. Entry (a, b) of the composed array is the network of the specification at (a, b).
-/
import proofs.«179938_g5239860101595_cont_sun_m_358_21_alg».proof.Defs
import proofs.«179938_g5239860101595_cont_sun_m_358_21_alg».proof.Proof.Gen.ReferenceIdeal.Run
import proofs.«179938_g5239860101595_cont_sun_m_358_21_alg».proof.Proof.Gen.ReferenceIdeal.Read
import proofs.«179938_g5239860101595_cont_sun_m_358_21_alg».proof.Proof.Spec

noncomputable section
namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The reference's composed array as a function of its eight argument arrays. -/
def refTerm (x : FVec Ideal S10000x128 .f32) (adj : FVec Ideal S10000x10000 .f32) (W1 : FVec Ideal S128x128 .f32) (b1 : FVec Ideal S128 .f32) (W2 : FVec Ideal S128x128 .f32) (b2 : FVec Ideal S128 .f32) (W3 : FVec Ideal S128x128 .f32) (b3 : FVec Ideal S128 .f32) : FVec Ideal S10000x128 .f32 :=
  addf (Host.dotGeneral dot_S10000x10000_S10000x128_S10000x128_1_0_0_1_n_n none adj (Host.dotGeneral dot_S10000x128_S128x128_S10000x128_1_0_0_1_n_n none (addf (maximumf (addf (Host.dotGeneral dot_S10000x10000_S10000x128_S10000x128_1_0_0_1_n_n none adj (Host.dotGeneral dot_S10000x128_S128x128_S10000x128_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x128 ![0, 1] bcast_S1x128_S10000x128_0_1 (broadcastInDim S1x128 ![1] bcast_S128_S1x128_1 b2))) (broadcastInDim S10000x128 ![] bcast_S_S10000x128 (constant S_ .f32 0x00000000#32))) (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32)))) W3)) (broadcastInDim S10000x128 ![0, 1] bcast_S1x128_S10000x128_0_1 (broadcastInDim S1x128 ![1] bcast_S128_S1x128_1 b3))

/-- The term the reference run ends at is this function of the launch contents of the arguments. -/
theorem run_eq_refTerm : ∀ (m : (ℓ : Loc nD τ sig) → Buf (Elt Ideal) ℓ) (c : Dev nD),
    addf (Host.dotGeneral (F := Ideal) (φ₁ := .f32) (φ₂ := .f32) dot_S10000x10000_S10000x128_S10000x128_1_0_0_1_n_n none (m ((c.tc : Thread nD τ).loc main_arg1)) (Host.dotGeneral (F := Ideal) (φ₁ := .f32) (φ₂ := .f32) dot_S10000x128_S128x128_S10000x128_1_0_0_1_n_n none (addf (maximumf (addf (Host.dotGeneral (F := Ideal) (φ₁ := .f32) (φ₂ := .f32) dot_S10000x10000_S10000x128_S10000x128_1_0_0_1_n_n none (m ((c.tc : Thread nD τ).loc main_arg1)) (Host.dotGeneral (F := Ideal) (φ₁ := .f32) (φ₂ := .f32) dot_S10000x128_S128x128_S10000x128_1_0_0_1_n_n none (maximumf (addf (Host.dotGeneral (F := Ideal) (φ₁ := .f32) (φ₂ := .f32) dot_S10000x10000_S10000x128_S10000x128_1_0_0_1_n_n none (m ((c.tc : Thread nD τ).loc main_arg1)) (Host.dotGeneral (F := Ideal) (φ₁ := .f32) (φ₂ := .f32) dot_S10000x128_S128x128_S10000x128_1_0_0_1_n_n none (m ((c.tc : Thread nD τ).loc main_arg0)) (m ((c.tc : Thread nD τ).loc main_arg2)))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant (F := Ideal) S_ .f32 0x00000000#32))) (m ((c.tc : Thread nD τ).loc main_arg4)))) (broadcastInDim S10000x128 ![0, 1] bcast_S1x128_S10000x128_0_1 (broadcastInDim S1x128 ![1] bcast_S128_S1x128_1 (m ((c.tc : Thread nD τ).loc main_arg5))))) (broadcastInDim S10000x128 ![] bcast_S_S10000x128 (constant (F := Ideal) S_ .f32 0x00000000#32))) (maximumf (addf (Host.dotGeneral (F := Ideal) (φ₁ := .f32) (φ₂ := .f32) dot_S10000x10000_S10000x128_S10000x128_1_0_0_1_n_n none (m ((c.tc : Thread nD τ).loc main_arg1)) (Host.dotGeneral (F := Ideal) (φ₁ := .f32) (φ₂ := .f32) dot_S10000x128_S128x128_S10000x128_1_0_0_1_n_n none (m ((c.tc : Thread nD τ).loc main_arg0)) (m ((c.tc : Thread nD τ).loc main_arg2)))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant (F := Ideal) S_ .f32 0x00000000#32)))) (m ((c.tc : Thread nD τ).loc main_arg6)))) (broadcastInDim S10000x128 ![0, 1] bcast_S1x128_S10000x128_0_1 (broadcastInDim S1x128 ![1] bcast_S128_S1x128_1 (m ((c.tc : Thread nD τ).loc main_arg7))))
      = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := fun _ _ => rfl

/-- The reference run with its result named by that function: the result array ends at the function of the launch
    contents of the arguments, and the arguments are unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

/-- The same function, stage by stage. -/
theorem refTerm_eq (x : FVec Ideal S10000x128 .f32) (adj : FVec Ideal S10000x10000 .f32) (W1 : FVec Ideal S128x128 .f32) (b1 : FVec Ideal S128 .f32) (W2 : FVec Ideal S128x128 .f32) (b2 : FVec Ideal S128 .f32) (W3 : FVec Ideal S128x128 .f32) (b3 : FVec Ideal S128 .f32) :
    refTerm x adj W1 b1 W2 b2 W3 b3 = Read.val_main_v17 (F := Ideal) x adj W1 b1 W2 b2 W3 b3 := rfl

/-! ## The index maps of the stages, by coordinates -/

theorem lidx_v0 (a : Fin 10000) (b k : Fin 128) : Read.lidx_main_v0 (ix2 a b) k = ix2 a k :=
  funext fun d => match d with | ⟨0, _⟩ => rfl | ⟨1, _⟩ => rfl
theorem ridx_v0 (a : Fin 10000) (b k : Fin 128) : Read.ridx_main_v0 (ix2 a b) k = ix2 k b :=
  funext fun d => match d with | ⟨0, _⟩ => rfl | ⟨1, _⟩ => rfl
theorem lidx_v6 (a : Fin 10000) (b k : Fin 128) : Read.lidx_main_v6 (ix2 a b) k = ix2 a k :=
  funext fun d => match d with | ⟨0, _⟩ => rfl | ⟨1, _⟩ => rfl
theorem ridx_v6 (a : Fin 10000) (b k : Fin 128) : Read.ridx_main_v6 (ix2 a b) k = ix2 k b :=
  funext fun d => match d with | ⟨0, _⟩ => rfl | ⟨1, _⟩ => rfl
theorem lidx_v13 (a : Fin 10000) (b k : Fin 128) : Read.lidx_main_v13 (ix2 a b) k = ix2 a k :=
  funext fun d => match d with | ⟨0, _⟩ => rfl | ⟨1, _⟩ => rfl
theorem ridx_v13 (a : Fin 10000) (b k : Fin 128) : Read.ridx_main_v13 (ix2 a b) k = ix2 k b :=
  funext fun d => match d with | ⟨0, _⟩ => rfl | ⟨1, _⟩ => rfl
theorem lidx_v1 (a : Fin 10000) (b : Fin 128) (k : Fin 10000) : Read.lidx_main_v1 (ix2 a b) k = ix2 a k :=
  funext fun d => match d with | ⟨0, _⟩ => rfl | ⟨1, _⟩ => rfl
theorem ridx_v1 (a : Fin 10000) (b : Fin 128) (k : Fin 10000) : Read.ridx_main_v1 (ix2 a b) k = ix2 k b :=
  funext fun d => match d with | ⟨0, _⟩ => rfl | ⟨1, _⟩ => rfl
theorem lidx_v7 (a : Fin 10000) (b : Fin 128) (k : Fin 10000) : Read.lidx_main_v7 (ix2 a b) k = ix2 a k :=
  funext fun d => match d with | ⟨0, _⟩ => rfl | ⟨1, _⟩ => rfl
theorem ridx_v7 (a : Fin 10000) (b : Fin 128) (k : Fin 10000) : Read.ridx_main_v7 (ix2 a b) k = ix2 k b :=
  funext fun d => match d with | ⟨0, _⟩ => rfl | ⟨1, _⟩ => rfl
theorem lidx_v14 (a : Fin 10000) (b : Fin 128) (k : Fin 10000) : Read.lidx_main_v14 (ix2 a b) k = ix2 a k :=
  funext fun d => match d with | ⟨0, _⟩ => rfl | ⟨1, _⟩ => rfl
theorem ridx_v14 (a : Fin 10000) (b : Fin 128) (k : Fin 10000) : Read.ridx_main_v14 (ix2 a b) k = ix2 k b :=
  funext fun d => match d with | ⟨0, _⟩ => rfl | ⟨1, _⟩ => rfl
theorem idx_v3 (a : Fin 10000) (b : Fin 128) : Read.idx_main_v3 (ix2 a b) = ix2 (0 : Fin 1) b :=
  funext fun d => match d with | ⟨0, _⟩ => rfl | ⟨1, _⟩ => rfl
theorem idx_v9 (a : Fin 10000) (b : Fin 128) : Read.idx_main_v9 (ix2 a b) = ix2 (0 : Fin 1) b :=
  funext fun d => match d with | ⟨0, _⟩ => rfl | ⟨1, _⟩ => rfl
theorem idx_v16 (a : Fin 10000) (b : Fin 128) : Read.idx_main_v16 (ix2 a b) = ix2 (0 : Fin 1) b :=
  funext fun d => match d with | ⟨0, _⟩ => rfl | ⟨1, _⟩ => rfl
theorem idx_v2 (b : Fin 128) : Read.idx_main_v2 (ix2 (0 : Fin 1) b) = ix1 b :=
  funext fun d => match d with | ⟨0, _⟩ => rfl
theorem idx_v8 (b : Fin 128) : Read.idx_main_v8 (ix2 (0 : Fin 1) b) = ix1 b :=
  funext fun d => match d with | ⟨0, _⟩ => rfl
theorem idx_v15 (b : Fin 128) : Read.idx_main_v15 (ix2 (0 : Fin 1) b) = ix1 b :=
  funext fun d => match d with | ⟨0, _⟩ => rfl

/-! ## The stages at an entry -/

/-- The first support x · W1. -/
theorem v0_at (x : FVec Ideal S10000x128 .f32) (W1 : FVec Ideal S128x128 .f32) (a : Fin 10000) (b : Fin 128) :
    Read.val_main_v0 (F := Ideal) x W1 (ix2 a b) = Spec.mm (Spec.mat x) (Spec.mat W1) a b := by
  rw [Read.val_main_v0_apply]
  refine Finset.sum_congr rfl fun k _ => ?_
  rw [lidx_v0, ridx_v0]
  rfl

/-- adj · (x · W1). -/
theorem v1_at (x : FVec Ideal S10000x128 .f32) (adj : FVec Ideal S10000x10000 .f32) (W1 : FVec Ideal S128x128 .f32) (a : Fin 10000) (b : Fin 128) :
    Read.val_main_v1 (F := Ideal) x adj W1 (ix2 a b) = Spec.mm (Spec.mat adj) (Spec.mm (Spec.mat x) (Spec.mat W1)) a b := by
  rw [Read.val_main_v1_apply]
  refine Finset.sum_congr rfl fun k _ => ?_
  rw [lidx_v1, ridx_v1, v0_at]
  rfl

/-- The first bias, spread over the rows. -/
theorem v3_at (b1 : FVec Ideal S128 .f32) (a : Fin 10000) (b : Fin 128) :
    Read.val_main_v3 (F := Ideal) b1 (ix2 a b) = Spec.vec b1 b := by
  rw [Read.val_main_v3_apply, idx_v3, Read.val_main_v2_apply, idx_v2]
  rfl

/-- The zero array of the first rectifier. -/
theorem zero0_at (i : S10000x128.Idx) : Read.val_main_call0_v0 (F := Ideal) i = 0 := by
  rw [Read.val_main_call0_v0_apply, Read.val_main_call0_cst_apply]
  exact Ideal.ofBits_zero_f32

/-- The zero array of the second rectifier. -/
theorem zero1_at (i : S10000x128.Idx) : Read.val_main_call1_v0 (F := Ideal) i = 0 := by
  rw [Read.val_main_call1_v0_apply, Read.val_main_call1_cst_apply]
  exact Ideal.ofBits_zero_f32

/-- The first hidden layer. -/
theorem v5_at (x : FVec Ideal S10000x128 .f32) (adj : FVec Ideal S10000x10000 .f32) (W1 : FVec Ideal S128x128 .f32) (b1 : FVec Ideal S128 .f32) (a : Fin 10000) (b : Fin 128) :
    Read.val_main_v5 (F := Ideal) x adj W1 b1 (ix2 a b) = Spec.h1 (Spec.mat adj) (Spec.mat x) (Spec.mat W1) (Spec.vec b1) a b := by
  rw [Read.val_main_v5_apply, Read.val_main_v4_apply, v1_at, v3_at, zero0_at]
  rfl

/-- The second support h1 · W2. -/
theorem v6_at (x : FVec Ideal S10000x128 .f32) (adj : FVec Ideal S10000x10000 .f32) (W1 : FVec Ideal S128x128 .f32) (b1 : FVec Ideal S128 .f32) (W2 : FVec Ideal S128x128 .f32) (a : Fin 10000) (b : Fin 128) :
    Read.val_main_v6 (F := Ideal) x adj W1 b1 W2 (ix2 a b) = Spec.mm (Spec.h1 (Spec.mat adj) (Spec.mat x) (Spec.mat W1) (Spec.vec b1)) (Spec.mat W2) a b := by
  rw [Read.val_main_v6_apply]
  refine Finset.sum_congr rfl fun k _ => ?_
  rw [lidx_v6, ridx_v6, v5_at]
  rfl

/-- adj · (h1 · W2). -/
theorem v7_at (x : FVec Ideal S10000x128 .f32) (adj : FVec Ideal S10000x10000 .f32) (W1 : FVec Ideal S128x128 .f32) (b1 : FVec Ideal S128 .f32) (W2 : FVec Ideal S128x128 .f32) (a : Fin 10000) (b : Fin 128) :
    Read.val_main_v7 (F := Ideal) x adj W1 b1 W2 (ix2 a b) = Spec.mm (Spec.mat adj) (Spec.mm (Spec.h1 (Spec.mat adj) (Spec.mat x) (Spec.mat W1) (Spec.vec b1)) (Spec.mat W2)) a b := by
  rw [Read.val_main_v7_apply]
  refine Finset.sum_congr rfl fun k _ => ?_
  rw [lidx_v7, ridx_v7, v6_at]
  rfl

/-- The second bias, spread over the rows. -/
theorem v9_at (b2 : FVec Ideal S128 .f32) (a : Fin 10000) (b : Fin 128) :
    Read.val_main_v9 (F := Ideal) b2 (ix2 a b) = Spec.vec b2 b := by
  rw [Read.val_main_v9_apply, idx_v9, Read.val_main_v8_apply, idx_v8]
  rfl

/-- The second hidden layer with the first added back. -/
theorem v12_at (x : FVec Ideal S10000x128 .f32) (adj : FVec Ideal S10000x10000 .f32) (W1 : FVec Ideal S128x128 .f32) (b1 : FVec Ideal S128 .f32) (W2 : FVec Ideal S128x128 .f32) (b2 : FVec Ideal S128 .f32) (a : Fin 10000) (b : Fin 128) :
    Read.val_main_v12 (F := Ideal) x adj W1 b1 W2 b2 (ix2 a b) = (fun k l => max (Spec.mm (Spec.mat adj) (Spec.mm (Spec.h1 (Spec.mat adj) (Spec.mat x) (Spec.mat W1) (Spec.vec b1)) (Spec.mat W2)) k l + Spec.vec b2 l) 0 + Spec.h1 (Spec.mat adj) (Spec.mat x) (Spec.mat W1) (Spec.vec b1) k l) a b := by
  rw [Read.val_main_v12_apply, Read.val_main_v11_apply, Read.val_main_v10_apply, v7_at, v9_at, zero1_at, v5_at]
  rfl

/-- The third support h2 · W3. -/
theorem v13_at (x : FVec Ideal S10000x128 .f32) (adj : FVec Ideal S10000x10000 .f32) (W1 : FVec Ideal S128x128 .f32) (b1 : FVec Ideal S128 .f32) (W2 : FVec Ideal S128x128 .f32) (b2 : FVec Ideal S128 .f32) (W3 : FVec Ideal S128x128 .f32) (a : Fin 10000) (b : Fin 128) :
    Read.val_main_v13 (F := Ideal) x adj W1 b1 W2 b2 W3 (ix2 a b) = Spec.mm (fun k l => max (Spec.mm (Spec.mat adj) (Spec.mm (Spec.h1 (Spec.mat adj) (Spec.mat x) (Spec.mat W1) (Spec.vec b1)) (Spec.mat W2)) k l + Spec.vec b2 l) 0 + Spec.h1 (Spec.mat adj) (Spec.mat x) (Spec.mat W1) (Spec.vec b1) k l) (Spec.mat W3) a b := by
  rw [Read.val_main_v13_apply]
  refine Finset.sum_congr rfl fun k _ => ?_
  rw [lidx_v13, ridx_v13, v12_at]
  rfl

/-- adj · (h2 · W3). -/
theorem v14_at (x : FVec Ideal S10000x128 .f32) (adj : FVec Ideal S10000x10000 .f32) (W1 : FVec Ideal S128x128 .f32) (b1 : FVec Ideal S128 .f32) (W2 : FVec Ideal S128x128 .f32) (b2 : FVec Ideal S128 .f32) (W3 : FVec Ideal S128x128 .f32) (a : Fin 10000) (b : Fin 128) :
    Read.val_main_v14 (F := Ideal) x adj W1 b1 W2 b2 W3 (ix2 a b)
      = Spec.mm (Spec.mat adj) (Spec.mm (fun k l => max (Spec.mm (Spec.mat adj) (Spec.mm (Spec.h1 (Spec.mat adj) (Spec.mat x) (Spec.mat W1) (Spec.vec b1)) (Spec.mat W2)) k l + Spec.vec b2 l) 0 + Spec.h1 (Spec.mat adj) (Spec.mat x) (Spec.mat W1) (Spec.vec b1) k l) (Spec.mat W3)) a b := by
  rw [Read.val_main_v14_apply]
  refine Finset.sum_congr rfl fun k _ => ?_
  rw [lidx_v14, ridx_v14, v13_at]
  rfl

/-- The third bias, spread over the rows. -/
theorem v16_at (b3 : FVec Ideal S128 .f32) (a : Fin 10000) (b : Fin 128) :
    Read.val_main_v16 (F := Ideal) b3 (ix2 a b) = Spec.vec b3 b := by
  rw [Read.val_main_v16_apply, idx_v16, Read.val_main_v15_apply, idx_v15]
  rfl

/-- Entry (a, b) of the reference's composed array is the network of the specification at (a, b). -/
theorem ref_apply (x : FVec Ideal S10000x128 .f32) (adj : FVec Ideal S10000x10000 .f32) (W1 : FVec Ideal S128x128 .f32) (b1 : FVec Ideal S128 .f32) (W2 : FVec Ideal S128x128 .f32) (b2 : FVec Ideal S128 .f32) (W3 : FVec Ideal S128x128 .f32) (b3 : FVec Ideal S128 .f32) (a : Fin 10000) (b : Fin 128) :
    refTerm x adj W1 b1 W2 b2 W3 b3 (ValueIdx.ix2 a b) = Cert.Spec.gcn (Cert.Spec.mat adj) (Cert.Spec.mat x) (Cert.Spec.mat W1) (Cert.Spec.vec b1) (Cert.Spec.mat W2) (Cert.Spec.vec b2) (Cert.Spec.mat W3) (Cert.Spec.vec b3) a b := by
  rw [refTerm_eq, Read.val_main_v17_apply, v14_at, v16_at]
  rfl

end Cert.ReferenceIdeal.RefValue
end
-- ==== Proof.lean ====
/-
  A three-layer graph convolution over a dense 10000 × 10000 adjacency, computed by two pipelined kernels (the first
  keeps x·W1 in a scratch and produces, row block by row block, the bf16 adjacency, the first hidden layer and its
  product with W2; the second streams the adjacency twice, first filling a scratch with (relu(adj·s2 + b2) + h1)·W3
  slice by slice, then producing adj·scratch + b3 block by block in reverse order), against the same network written
  as plain matrix products on the host.
  Over the extended reals the two agree entry by entry: a change of float format is the identity, a product into a
  zero accumulator is the plain sum, and tiling the rows changes no sum — the kernel's result array is the network
  of the argument arrays (Proof/KI/Bridge.lean), and so is the reference's composed term (Proof/RefValue.lean).
  Both programs' frames come from one run, stated at any float instance: the launch, the reshapes of the three bias
  vectors, region 0, region 1, each region's invariant carrying its scratch (Proof/K, Proof/KI).
-/
import proofs.«179938_g5239860101595_cont_sun_m_358_21_alg».proof.Defs
import proofs.«179938_g5239860101595_cont_sun_m_358_21_alg».proof.Proof.Gen.Kernel
import proofs.«179938_g5239860101595_cont_sun_m_358_21_alg».proof.Proof.Gen.KernelIdeal
import proofs.«179938_g5239860101595_cont_sun_m_358_21_alg».proof.Proof.Gen.ReferenceIdeal
import proofs.«179938_g5239860101595_cont_sun_m_358_21_alg».proof.Proof.Gen.Pre_finite_inputs
import proofs.«179938_g5239860101595_cont_sun_m_358_21_alg».proof.Proof.K.Frame
import proofs.«179938_g5239860101595_cont_sun_m_358_21_alg».proof.Proof.KI.Frame
import proofs.«179938_g5239860101595_cont_sun_m_358_21_alg».proof.Proof.KI.Bridge
import proofs.«179938_g5239860101595_cont_sun_m_358_21_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the eight arguments, both programs end with the network of those arguments in their
    result buffers: the kernel's by its two regions' write-backs, the reference's by its composed host term. -/
theorem algebraic : Cert.algebraic_KernelIdeal_ReferenceIdeal := by
  intro m ρ m' ρ' _ hagree
  refine ⟨fun c => Cert.KernelIdeal.Hand.W3 m c (Proc.devRef .tc Cert.KernelIdeal.main_v4),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  funext j
  obtain ⟨a, b, rfl⟩ : ∃ (a : Fin 10000) (b : Fin 128), j = ValueIdx.ix2 a b := ⟨j 0, j 1, ValueIdx.eq_ix2 j⟩
  exact (Cert.ReferenceIdeal.RefValue.ref_apply _ _ _ _ _ _ _ _ a b).trans
    (Cert.KernelIdeal.Hand.kernel_out m c a b).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
